-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S4096x64 .f32 .bf16
  ∧ IdealRules.truncf_extf.Statement Cert.KernelIdeal.S4096x1 .f32 .bf16
  ∧ IdealRules.truncf_extf.Statement Cert.KernelIdeal.S2048x64 .f32 .bf16
  ∧ IdealRules.truncf_extf.Statement Cert.KernelIdeal.S2048x1 .f32 .bf16
  ∧ IdealRules.truncf_extf.Statement Cert.KernelIdeal.S2048x64 .f32 .bf16
  ∧ IdealRules.truncf_extf.Statement Cert.KernelIdeal.S2048x1 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x64 : Shape := ⟨3, ![4, 4096, 64]⟩
abbrev S_ : Shape := ⟨0, ![]⟩

class Facts : Prop where
  bcast_S_S4x4096x64 : S_.BroadcastsInDim S4x4096x64 (![] : Fin 0 → Fin S4x4096x64.rank)
  reducesTo_S4x4096x64_S_d0_1_2 : S4x4096x64.ReducesTo [0, 1, 2] S_
  h_S_ : 0 < S_.numel

variable [Facts]

def fn {F : FTy → Type} [FloatOps F] (main_arg0 : FVec F S4x4096x64 .f32) (main_arg1 : FVec F S4x4096x64 .f32) : IVec S_ 1 :=
  let main_v0 : FVec F S4x4096x64 .f32 := Host.absf main_arg0
  let main_cst : FVec F S_ .f32 := constant S_ .f32 0x7F800000#32
  let main_v1 : FVec F S4x4096x64 .f32 := broadcastInDim S4x4096x64 ![] bcast_S_S4x4096x64 main_cst
  let main_v2 : IVec S4x4096x64 1 := cmpf .olt main_v0 main_v1
  let main_c : IVec S_ 1 := constantI S_ 1 1#1
  let main_v3 : IVec S_ 1 := (fun x v => Host.reduce IntOp.andi x v reducesTo_S4x4096x64_S_d0_1_2 h_S_) main_v2 main_c
  let main_v4 : FVec F S4x4096x64 .f32 := Host.absf main_arg1
  let main_cst_0 : FVec F S_ .f32 := constant S_ .f32 0x7F800000#32
  let main_v5 : FVec F S4x4096x64 .f32 := broadcastInDim S4x4096x64 ![] bcast_S_S4x4096x64 main_cst_0
  let main_v6 : IVec S4x4096x64 1 := cmpf .olt main_v4 main_v5
  let main_c_1 : IVec S_ 1 := constantI S_ 1 1#1
  let main_v7 : IVec S_ 1 := (fun x v => Host.reduce IntOp.andi x v reducesTo_S4x4096x64_S_d0_1_2 h_S_) main_v6 main_c_1
  let main_v8 : IVec S_ 1 := andi main_v3 main_v7
  main_v8
-- ==== Kernel.lean ====
abbrev S4x4096x64 : Shape := ⟨3, ![4, 4096, 64]⟩
abbrev S1x1x2 : Shape := ⟨3, ![1, 1, 2]⟩
abbrev S1x4096x64 : Shape := ⟨3, ![1, 4096, 64]⟩
abbrev S4096x64 : Shape := ⟨2, ![4096, 64]⟩
abbrev S4096 : Shape := ⟨1, ![4096]⟩
abbrev S4096x1 : Shape := ⟨2, ![4096, 1]⟩
abbrev S4096x2 : Shape := ⟨2, ![4096, 2]⟩
abbrev S4096x68 : Shape := ⟨2, ![4096, 68]⟩
abbrev S1x2048x64 : Shape := ⟨3, ![1, 2048, 64]⟩
abbrev S2048x64 : Shape := ⟨2, ![2048, 64]⟩
abbrev S2048 : Shape := ⟨1, ![2048]⟩
abbrev S2048x1 : Shape := ⟨2, ![2048, 1]⟩
abbrev S2048x2 : Shape := ⟨2, ![2048, 2]⟩
abbrev S2048x68 : Shape := ⟨2, ![2048, 68]⟩
abbrev S2048x4096 : Shape := ⟨2, ![2048, 4096]⟩
abbrev S1x2048x1 : Shape := ⟨3, ![1, 2048, 1]⟩
abbrev S1 : Shape := ⟨1, ![1]⟩
abbrev S1x1x1 : Shape := ⟨3, ![1, 1, 1]⟩
abbrev S1x1 : Shape := ⟨2, ![1, 1]⟩
abbrev S1x4096 : Shape := ⟨2, ![1, 4096]⟩
abbrev S1x2 : Shape := ⟨2, ![1, 2]⟩
abbrev S_ : Shape := ⟨0, ![]⟩

abbrev nBuf : Space → Nat
  | .hbm => 14
  | .vmem => 5
  | .smem => 0
  | _ => 0

abbrev bufTy : (tb : Table) → Fin (tcTables nBuf tb) → BufTy
  | .hbm, ⟨0, _⟩ => ⟨S4x4096x64, .f32⟩
  | .hbm, ⟨1, _⟩ => ⟨S4x4096x64, .f32⟩
  | .hbm, ⟨2, _⟩ => ⟨S1x1x2, .f32⟩
  | .hbm, ⟨3, _⟩ => ⟨S1x1x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S1x1x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S1x4096x64, .f32⟩
  | .local _ .vmem, ⟨1, _⟩ => ⟨S1x4096x64, .f32⟩
  | .local _ .vmem, ⟨2, _⟩ => ⟨S1x4096x64, .f32⟩
  | .local _ .vmem, ⟨3, _⟩ => ⟨S1x4096x64, .f32⟩
  | .local _ .vmem, ⟨4, _⟩ => ⟨S1x1x2, .f32⟩
  | _, _ => ⟨S4x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v82 : BitVec 1 := Scalar.cmpi .eq arg0 c0_i32
  let v83 : BitVec 32 := Scalar.extui v82
  let c0_i32_25 : BitVec 32 := 0#32
  let v84 : BitVec 1 := Scalar.cmpi .ne v83 c0_i32_25
  v84

def k0_cond2 (i : grid0.Coords) : BitVec 1 :=
  let arg0 : BitVec 32 := BitVec.ofNat 32 (i 0).val
  let c0_i32_26 : BitVec 32 := 0#32
  let v85 : BitVec 1 := Scalar.cmpi .sgt arg0 c0_i32_26
  let v86 : BitVec 32 := Scalar.extui v85
  let c0_i32_27 : BitVec 32 := 0#32
  let v87 : BitVec 1 := Scalar.cmpi .ne v86 c0_i32_27
  v87

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  bitsLt_bf16_f32 : FTy.bits .bf16 < FTy.bits .f32
  reduces_S4096x64_S4096 : S4096x64.Reduces [1] S4096
  shapeCasts_S4096_S4096x1 : S4096.ShapeCasts S4096x1
  concatenates_S4096x64_S4096x2_S4096x1_S4096x1_S4096x68_d1 : Shape.Concatenates [S4096x64, S4096x2, S4096x1, S4096x1] S4096x68 1
  inb_S1x4096x64_S1x2048x64_0_0_0 : ∀ a, (![0, 0, 0] : Fin 3 → Nat) a + S1x2048x64.size a ≤ S1x4096x64.size a
  h_S1x2048x64 : 0 < S1x2048x64.numel
  shapeCasts_S1x2048x64_S2048x64 : S1x2048x64.ShapeCasts S2048x64
  reduces_S2048x64_S2048 : S2048x64.Reduces [1] S2048
  shapeCasts_S2048_S2048x1 : S2048.ShapeCasts S2048x1
  concatenates_S2048x64_S2048x1_S2048x1_S2048x2_S2048x68_d1 : Shape.Concatenates [S2048x64, S2048x1, S2048x1, S2048x2] S2048x68 1
  reduces_S2048x4096_S2048 : S2048x4096.Reduces [1] S2048
  shapeCasts_S2048x1_S1x2048x1 : S2048x1.ShapeCasts S1x2048x1
  reduces_S1x2048x1_S1 : S1x2048x1.Reduces [1, 2] S1
  shapeCasts_S1_S1x1x1 : S1.ShapeCasts S1x1x1
  inpos_S1x1x1_p0_0_0 : ∀ a, (![0, 0, 0] : Fin 3 → Nat) a < S1x1x1.size a
  reduces_S2048x4096_S4096 : S2048x4096.Reduces [0] S4096
  inb_S1x4096x64_S1x2048x64_0_2048_0 : ∀ a, (![0, 2048, 0] : Fin 3 → Nat) a + S1x2048x64.size a ≤ S1x4096x64.size a
  shapeCasts_S4096_S1x4096 : S4096.ShapeCasts S1x4096
  reduces_S1x4096_S1 : S1x4096.Reduces [1] S1
  shapeCasts_S1_S1x1 : S1.ShapeCasts S1x1
  inpos_S1x1_p0_0 : ∀ a, (![0, 0] : Fin 2 → Nat) a < S1x1.size a
  concatenates_S1x1_S1x1_S1x2_d1 : Shape.Concatenates [S1x1, S1x1] S1x2 1
  inb_S1x1x2_S1x1x2_0_0_0 : ∀ a, (![0, 0, 0] : Fin 3 → Nat) a + S1x1x2.size a ≤ S1x1x2.size a
  h_S1x1x2 : 0 < S1x1x2.numel
  shapeCasts_S1x1x2_S1x2 : S1x1x2.ShapeCasts S1x2
  shapeCasts_S1x2_S1x1x2 : S1x2.ShapeCasts S1x1x2
  slices_S1x1x2_S1x1x1_0_0_0 : S1x1x2.Slices ![0, 0, 0] S1x1x1
  shapeCasts_S1x1x1_S_ : S1x1x1.ShapeCasts S_
  slices_S1x1x2_S1x1x1_0_0_1 : S1x1x2.Slices ![0, 0, 1] S1x1x1
  dot_S2048x68_S4096x68_S2048x4096_1_1_0_0_n_n_wf : DotDims.WF S2048x68 S4096x68 S2048x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x64.size a ≤ S4x4096x64.size a
  hwx0_0 : ∀ i : grid0.Coords, EltTy.bits .f32 = 32 ∨ (Rect.block (s := S4x4096x64) S1x4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x64.size a ≤ S4x4096x64.size a
  hwx0_1 : ∀ i : grid0.Coords, EltTy.bits .f32 = 32 ∨ (Rect.block (s := S4x4096x64) S1x4096x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1x2.size a ≤ S1x1x2.size a
  hwx0_2 : ∀ i : grid0.Coords, EltTy.bits .f32 = 32 ∨ (Rect.block (s := S1x1x2) S1x1x2.size (cc0_transform_2 i) (hinb0_2 i)).WholeWords (EltTy.packing .f32)

variable [Facts₀]

def dot_S2048x68_S4096x68_S2048x4096_1_1_0_0_n_n : DotDims S2048x68 S4096x68 S2048x4096 where
  lhsContracting := [1]
  rhsContracting := [1]
  lhsNonContracting := [0]
  rhsNonContracting := [0]
  lhsBatch := []
  rhsBatch := []
  wf := dot_S2048x68_S4096x68_S2048x4096_1_1_0_0_n_n_wf

abbrev win0_0 : Pipeline.Window sig grid0 :=
  Pipeline.Window.ofSpec (Memref.whole main_arg0) S1x4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x2.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) | ⟨_ + 3, h⟩ => absurd h (Nat.not_lt.2 (Nat.le_add_left _ _))

class Facts : Prop extends Facts₀ where

variable [Facts]
-- ==== ReferenceIdeal.lean ====
abbrev S4x4096x64 : Shape := ⟨3, ![4, 4096, 64]⟩
abbrev S_ : Shape := ⟨0, ![]⟩
abbrev S4x4096 : Shape := ⟨2, ![4, 4096]⟩
abbrev S4x4096x1 : Shape := ⟨3, ![4, 4096, 1]⟩
abbrev S4x1x4096 : Shape := ⟨3, ![4, 1, 4096]⟩
abbrev S4x4096x4096 : Shape := ⟨3, ![4, 4096, 4096]⟩
abbrev S4 : Shape := ⟨1, ![4]⟩

abbrev nBuf : Space → Nat
  | .hbm => 43
  | .vmem => 0
  | .smem => 0
  | _ => 0

abbrev bufTy : (tb : Table) → Fin (tcTables nBuf tb) → BufTy
  | .hbm, ⟨0, _⟩ => ⟨S4x4096x64, .f32⟩
  | .hbm, ⟨1, _⟩ => ⟨S4x4096x64, .f32⟩
  | .hbm, ⟨2, _⟩ => ⟨S4x4096x64, .f32⟩
  | .hbm, ⟨3, _⟩ => ⟨S_, .f32⟩
  | .hbm, ⟨4, _⟩ => ⟨S4x4096, .f32⟩
  | .hbm, ⟨5, _⟩ => ⟨S4x4096x1, .f32⟩
  | .hbm, ⟨6, _⟩ => ⟨S4x4096x64, .f32⟩
  | .hbm, ⟨7, _⟩ => ⟨S_, .f32⟩
  | .hbm, ⟨8, _⟩ => ⟨S4x4096, .f32⟩
  | .hbm, ⟨9, _⟩ => ⟨S4x1x4096, .f32⟩
  | .hbm, ⟨10, _⟩ => ⟨S4x4096x4096, .f32⟩
  | .hbm, ⟨11, _⟩ => ⟨S4x4096x4096, .f32⟩
  | .hbm, ⟨12, _⟩ => ⟨S4x4096x4096, .f32⟩
  | .hbm, ⟨13, _⟩ => ⟨S4x4096x4096, .f32⟩
  | .hbm, ⟨14, _⟩ => ⟨S_, .f32⟩
  | .hbm, ⟨15, _⟩ => ⟨S4x4096x4096, .f32⟩
  | .hbm, ⟨16, _⟩ => ⟨S4x4096x4096, .f32⟩
  | .hbm, ⟨17, _⟩ => ⟨S4x4096x4096, .f32⟩
  | .hbm, ⟨18, _⟩ => ⟨S_, .f32⟩
  | .hbm, ⟨19, _⟩ => ⟨S4x4096x4096, .f32⟩
  | .hbm, ⟨20, _⟩ => ⟨S4x4096x4096, .f32⟩
  | .hbm, ⟨21, _⟩ => ⟨S4x4096x4096, .f32⟩
  | .hbm, ⟨22, _⟩ => ⟨S_, .f32⟩
  | .hbm, ⟨23, _⟩ => ⟨S4x4096, .f32⟩
  | .hbm, ⟨24, _⟩ => ⟨S_, .f32⟩
  | .hbm, ⟨25, _⟩ => ⟨S4x4096, .f32⟩
  | .hbm, ⟨26, _⟩ => ⟨S_, .f32⟩
  | .hbm, ⟨27, _⟩ => ⟨S4, .f32⟩
  | .hbm, ⟨28, _⟩ => ⟨S_, .f32⟩
  | .hbm, ⟨29, _⟩ => ⟨S4, .f32⟩
  | .hbm, ⟨30, _⟩ => ⟨S4, .f32⟩
  | .hbm, ⟨31, _⟩ => ⟨S_, .f32⟩
  | .hbm, ⟨32, _⟩ => ⟨S4, .f32⟩
  | .hbm, ⟨33, _⟩ => ⟨S_, .f32⟩
  | .hbm, ⟨34, _⟩ => ⟨S4, .f32⟩
  | .hbm, ⟨35, _⟩ => ⟨S4, .f32⟩
  | .hbm, ⟨36, _⟩ => ⟨S4, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | _, _ => ⟨S4x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_9 : Ref sig .tc := ⟨.hbm, 37, rfl⟩
abbrev main_v25 : Ref sig .tc := ⟨.hbm, 38, rfl⟩
abbrev main_cst_10 : Ref sig .tc := ⟨.hbm, 39, rfl⟩
abbrev main_v26 : Ref sig .tc := ⟨.hbm, 40, rfl⟩
abbrev main_cst_11 : Ref sig .tc := ⟨.hbm, 41, rfl⟩
abbrev main_v27 : Ref sig .tc := ⟨.hbm, 42, rfl⟩

abbrev nD : Nat := 1
abbrev τ : Topo := Topo.v7x

variable {F : FTy → Type} [FloatOps F]

class Facts₀ : Prop where
  reducesTo_S4x4096x64_S4x4096_d2 : S4x4096x64.ReducesTo [2] S4x4096
  h_S_ : 0 < S_.numel
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  bcast_S_S4x4096x4096 : S_.BroadcastsInDim S4x4096x4096 (![] : Fin 0 → Fin S4x4096x4096.rank)
  reducesTo_S4x4096x4096_S4x4096_d2 : S4x4096x4096.ReducesTo [2] S4x4096
  reducesTo_S4x4096x4096_S4x4096_d1 : S4x4096x4096.ReducesTo [1] S4x4096
  reducesTo_S4x4096_S4_d1 : S4x4096.ReducesTo [1] S4
  bcast_S_S4 : S_.BroadcastsInDim S4 (![] : Fin 0 → Fin S4.rank)
  reducesTo_S4_S_d0 : S4.ReducesTo [0] S_
  dot_S4x4096x64_S4x4096x64_S4x4096x4096_2_2_1_1_0_0_wf : DotDims.WF S4x4096x64 S4x4096x64 S4x4096x4096 [2] [2] [1] [1] [0] [0]

variable [Facts₀]

def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf

class Facts : Prop extends Facts₀ where

variable [Facts]
-- ==== Proof.AccDefsK.lean ====
/-
  The values one grid point of the region computes, named: the two halves of the first set's [1, 4096, 64] block as
  the body's two loads read them, the pair of sums the point computes from them and the second set's block, and the
  recast of a pair to the output block's shape. Stated at any float instance.
-/
import proofs.«178844_g68143951118336_cont_9to1c4b_323_21_alg».proof.Proof.Gen.Kernel.Skeleton
import Idealize.ShloMosaic.Lib.ValueIdx

noncomputable section

namespace Cert.Kernel.Acc

open Idealize.ShloMosaic Idealize.ShloMosaic.ValueIdx Idealize.SL.Sem
open Cert.Kernel Cert.Kernel.Gen

variable {F : FTy → Type} [FloatOps F]

/-- Rows 0 … 2047 of a [1, 4096, 64] block: what the body's first load of the first window reads. -/
def topHalf (x : Vec F S1x4096x64 .f32) : Vec F S1x2048x64 .f32 :=
  fun j => x (ix3 (0 : Fin 1) (⟨(j 1).val, by have := (j 1).isLt; simp only [Matrix.cons_val_one, Matrix.cons_val_zero] at this; omega⟩ : Fin 4096) (⟨(j 2).val, by have := (j 2).isLt; simpa using this⟩ : Fin 64))
/-- Rows 2048 … 4095: what its second load reads. -/
def botHalf (x : Vec F S1x4096x64 .f32) : Vec F S1x2048x64 .f32 :=
  fun j => x (ix3 (0 : Fin 1) (⟨(j 1).val + 2048, by have := (j 1).isLt; simp only [Matrix.cons_val_one, Matrix.cons_val_zero] at this; omega⟩ : Fin 4096) (⟨(j 2).val, by have := (j 2).isLt; simpa using this⟩ : Fin 64))

theorem topHalf_apply (x : Vec F S1x4096x64 .f32) (n : Fin 2048) (d : Fin 64) :
    topHalf x (ix3 (0 : Fin 1) n d) = x (ix3 (0 : Fin 1) (⟨n.val, by have := n.isLt; omega⟩ : Fin 4096) d) := rfl
theorem botHalf_apply (x : Vec F S1x4096x64 .f32) (n : Fin 2048) (d : Fin 64) :
    botHalf x (ix3 (0 : Fin 1) n d) = x (ix3 (0 : Fin 1) (⟨n.val + 2048, by have := n.isLt; omega⟩ : Fin 4096) d) := rfl

/-- The pair of sums one point computes from the two windows' blocks (first set `a`, second set `b`). -/
def pointSums (a b : Vec F S1x4096x64 .f32) : FVec F S1x2 .f32 :=
  k0_pay6 (k0_pay2 b) (k0_pay4 b (topHalf a)) (k0_pay5 b (topHalf a)) (botHalf a)

/-- What the first point stores: its pair, recast to the block's shape. -/
def firstStore (p : FVec F S1x2 .f32) : FVec F S1x1x2 .f32 := shapeCast S1x1x2 p shapeCasts_S1x2_S1x1x2

end Cert.Kernel.Acc

end
-- ==== Proof.BodyK.lean ====
/-
  The kernel body's two runs with the output block NAMED. At the first grid point the body stores the point's pair
  of sums into the output block, whatever was there; at every later point it loads the block and stores it back with
  the point's pair added. Either way the two input blocks are left as they were. Stated at any float instance, on any
  whole staging memrefs.
-/
import proofs.«178844_g68143951118336_cont_9to1c4b_323_21_alg».proof.Proof.Gen.Kernel.Frame
import proofs.«178844_g68143951118336_cont_9to1c4b_323_21_alg».proof.Proof.AccDefsK
import Idealize.ShloMosaic.Lib.Pipeline.Value

set_option maxRecDepth 16384

noncomputable section

namespace Cert.Kernel.Acc

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ### The loads' rectangles and the one store

Each access goes through a unit-stride rectangle at literal offsets: coordinate `j` on an axis goes to
`offset + 1 · j`. At zero offsets and the block's own sizes that is the identity, so a whole-block load reads the
contents and the one whole-block store leaves its payload; the two half loads of the first window read rows
`j` and `2048 + j`. -/

/-- The zero offsets of a rank-3 access, as the constant function. -/
theorem off3_zero : (![0, 0, 0] : Fin 3 → ℕ) = fun _ => 0 := by
  funext a; fin_cases a <;> rfl

omit [FloatOps F] in
/-- The load of rows 0 … 2047 reads the block's top half: the rectangle sends coordinate `j` on each axis to
    `0 + 1 · j` (the leading axis has the one coordinate 0). -/
theorem ld_top (x : Vec F S1x4096x64 .f32) :
    View.ld x (Rect.unit (s := S1x4096x64) ![0, 0, 0] S1x2048x64.size inb_S1x4096x64_S1x2048x64_0_0_0) = topHalf x := by
  funext j
  refine congrArg x (funext fun a => ?_)
  match a with
  | ⟨0, _⟩ =>
    apply Fin.ext
    have h : (j 0).val < 1 := (j 0).isLt
    show 0 + 1 * (j 0).val = 0
    omega
  | ⟨1, _⟩ =>
    apply Fin.ext
    show 0 + 1 * (j 1).val = (j 1).val
    omega
  | ⟨2, _⟩ =>
    apply Fin.ext
    show 0 + 1 * (j 2).val = (j 2).val
    omega

omit [FloatOps F] in
/-- The load of rows 2048 … 4095 reads its bottom half: on the row axis coordinate `j` goes to `2048 + 1 · j`. -/
theorem ld_bot (x : Vec F S1x4096x64 .f32) :
    View.ld x (Rect.unit (s := S1x4096x64) ![0, 2048, 0] S1x2048x64.size inb_S1x4096x64_S1x2048x64_0_2048_0) = botHalf x := by
  funext j
  refine congrArg x (funext fun a => ?_)
  match a with
  | ⟨0, _⟩ =>
    apply Fin.ext
    have h : (j 0).val < 1 := (j 0).isLt
    show 0 + 1 * (j 0).val = 0
    omega
  | ⟨1, _⟩ =>
    apply Fin.ext
    show 2048 + 1 * (j 1).val = (j 1).val + 2048
    omega
  | ⟨2, _⟩ =>
    apply Fin.ext
    show 0 + 1 * (j 2).val = (j 2).val
    omega

/-- One store through the output block's whole rectangle leaves its payload, whatever the block held: the one piece
    covers every index, so the block reads as the canonical contents of that piece, which is the payload. -/
theorem read_one_store (v : View sig .tc .vmem S1x1x2 .f32) (f : v.ty.Contents (Elt F)) (w : S1x1x2.Idx → Elt F .f32) :
    v.read (Elt F) (v.writes (Elt F) f [⟨Rect.unit ![0, 0, 0] S1x1x2.size inb_S1x1x2_S1x1x2_0_0_0, w⟩]) = w := by
  have hcov : ∀ y : S1x1x2.Idx, ∃ p ∈ [(⟨Rect.unit ![0, 0, 0] S1x1x2.size inb_S1x1x2_S1x1x2_0_0_0, w⟩ : View.Piece (Elt F) S1x1x2 .f32)],
      y ∈ p.1.set :=
    fun y => ⟨_, List.mem_singleton_self _, View.mem_set_unit_zero (S := S1x1x2) off3_zero inb_S1x1x2_S1x1x2_0_0_0 y⟩
  rw [View.read_writes_eq_canon v f _ hcov, View.canon_unit_zero (S := S1x1x2) off3_zero]

/-! ### The two runs -/

set_option maxHeartbeats 1000000 in
/-- The first point (`program_id == 0`): the block ends at the point's pair. -/
theorem bodyRun_first (c : Dev nD) (i : grid0.Coords) (arg1 : Memref sig .tc .vmem S1x4096x64 .f32) (harg1 : arg1.IsWhole) (arg2 : Memref sig .tc .vmem S1x4096x64 .f32) (harg2 : arg2.IsWhole) (arg3 : Memref sig .tc .vmem S1x1x2 .f32) (harg3 : arg3.IsWhole)
    (hc0 : k0_cond1 i = 1#1) (hc1 : ¬ k0_cond2 i = 1#1)
    (x0 : Vec F S1x4096x64 .f32) (x1 : Vec F S1x4096x64 .f32) :
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1
                ∗ owns (c : Thread nD τ) arg3 fullShare (firstStore (pointSums x0 x1))) -∗ K ⟨⟩))
          ⊢ wp frame (wpE (defs₀ (F := F)) Variants.none c none) E (cc0__chamfer_batch_kernel i arg1 harg1 arg2 harg2 arg3 harg3) K := by
  intro E K
  -- the body and its two parts as sequences of memory operations over the named payloads
  simp only [cc0__chamfer_batch_kernel_eq_skeleton]; unfold cc0__chamfer_batch_kernel_skel
  simp only [k0_part1_eq_skeleton, k0_part2_eq_skeleton]; unfold k0_part1_skel k0_part2_skel
  unfold owns
  iintro ⟨⟨%f0, %hf0, H0⟩, ⟨%f1, %hf1, H1⟩, ⟨%d, %f2, %hf2, H2⟩, Hk⟩
  -- a whole memref's contents are determined by what is read through it
  obtain rfl := harg1.eq_unread hf0; obtain rfl := harg2.eq_unread hf1
  -- the three loads of the inputs, the first conditional taken (the block's dead load, then its one store), the second not
  sl_exec (disch := first | exact hc0 | exact hc1)
  sl_step
  iapply Hk
  -- the inputs are as they were
  isplitl [H0]
  · iexists _; isplitr; · ipureintro; exact harg1.read_unread _
    iexact H0
  isplitl [H1]
  · iexists _; isplitr; · ipureintro; exact harg2.read_unread _
    iexact H1
  -- the output block reads as the one store's payload, computed from the second block whole and the first block's halves
  iexists _; isplitr; rotate_left
  · iexact H2
  · ipureintro
    refine (read_one_store _ _ _).trans ?_
    dsimp only
    simp only [View.readAt_eq_ld, harg1.read_unread, harg2.read_unread, View.ld_unit_zero (S := S1x4096x64) off3_zero]
    rw [ld_top x0, ld_bot x0]
    rfl

set_option maxHeartbeats 1000000 in
/-- A later point (`program_id > 0`): the block, found at `d`, ends at `d` with the point's pair added. -/
theorem bodyRun_later (c : Dev nD) (i : grid0.Coords) (arg1 : Memref sig .tc .vmem S1x4096x64 .f32) (harg1 : arg1.IsWhole) (arg2 : Memref sig .tc .vmem S1x4096x64 .f32) (harg2 : arg2.IsWhole) (arg3 : Memref sig .tc .vmem S1x1x2 .f32) (harg3 : arg3.IsWhole)
    (hc0 : ¬ k0_cond1 i = 1#1) (hc1 : k0_cond2 i = 1#1)
    (x0 : Vec F S1x4096x64 .f32) (x1 : Vec F S1x4096x64 .f32) (d : Vec F S1x1x2 .f32) :
      ∀ (E : Set ℕ) (K : PUnit → sProp 𝕄),
        iprop(owns (c : Thread nD τ) arg1 fullShare x0 ∗ owns (c : Thread nD τ) arg2 fullShare x1 ∗ owns (c : Thread nD τ) arg3 fullShare d
            ∗ (iprop(owns (c : Thread nD τ) arg1 fullShare x0 ∗ owns (c : Thread nD τ) arg2 fullShare x1
                ∗ owns (c : Thread nD τ) arg3 fullShare (k0_pay1 (pointSums x0 x1) d)) -∗ K ⟨⟩))
          ⊢ wp frame (wpE (defs₀ (F := F)) Variants.none c none) E (cc0__chamfer_batch_kernel i arg1 harg1 arg2 harg2 arg3 harg3) K := by
  intro E K
  -- the body and its two parts as sequences of memory operations over the named payloads
  simp only [cc0__chamfer_batch_kernel_eq_skeleton]; unfold cc0__chamfer_batch_kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, Hk⟩
  -- a whole memref's contents are determined by what is read through it
  obtain rfl := harg1.eq_unread hf0; obtain rfl := harg2.eq_unread hf1; obtain rfl := harg3.eq_unread hf2
  -- the three loads of the inputs, the first conditional not taken, the second taken: the block loaded (twice, once dead)
  -- and stored back with the point's pair added
  sl_exec (disch := first | exact hc0 | exact hc1)
  sl_step
  iapply Hk
  -- the inputs are as they were
  isplitl [H0]
  · iexists _; isplitr; · ipureintro; exact harg1.read_unread _
    iexact H0
  isplitl [H1]
  · iexists _; isplitr; · ipureintro; exact harg2.read_unread _
    iexact H1
  -- the output block reads as the one store's payload: the pair, computed as at the first point, added to what the
  -- block's load read, which is what the block held
  iexists _; isplitr; rotate_left
  · iexact H2
  · ipureintro
    refine (read_one_store _ _ _).trans ?_
    dsimp only
    simp only [View.readAt_eq_ld, harg1.read_unread, harg2.read_unread, harg3.read_unread,
      View.ld_unit_zero (S := S1x4096x64) off3_zero, View.ld_unit_zero (S := S1x1x2) off3_zero]
    rw [ld_top x0, ld_bot x0]
    rfl

end Cert.Kernel.Acc

end
-- ==== Proof.RunK.lean ====
/-
  The run of the program with its one region's OUTPUT NAMED. The region visits the four batches in order; the
  output window's block is the whole [1, 1, 2] result array at every point and is written back only after the last,
  so its staging buffer carries the running pair of sums: the first point stores its pair, every later point loads
  what is there and stores that plus its own pair. After the region the host lines divide each total by 4096, add the
  two quotients and divide by one constant. Stated at any float instance.
-/
import proofs.«178844_g68143951118336_cont_9to1c4b_323_21_alg».proof.Proof.BodyK
import Idealize.ShloMosaic.Lib.StableHlo.Run
import Idealize.ShloMosaic.Lib.Pipeline.Value

set_option maxRecDepth 16384

noncomputable section

namespace Cert.Kernel.Acc

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Batch `t` of the first and of the second argument array, as a [1, 4096, 64] block. -/
def blkA (c : Dev nD) (t : Fin 4) : Vec F S1x4096x64 .f32 :=
  fun j => (m ((c : Thread nD τ).loc main_arg0) : Vec F S4x4096x64 .f32) (ix3 t (j 1) (j 2))
def blkB (c : Dev nD) (t : Fin 4) : Vec F S1x4096x64 .f32 :=
  fun j => (m ((c : Thread nD τ).loc main_arg1) : Vec F S4x4096x64 .f32) (ix3 t (j 1) (j 2))

/-- The result array when the region ends: the first batch's pair, then the three later batches' pairs added on in order. -/
def accFinal (c : Dev nD) : Vec F S1x1x2 .f32 :=
  k0_pay1 (pointSums (blkA m c 3) (blkB m c 3))
    (k0_pay1 (pointSums (blkA m c 2) (blkB m c 2))
      (k0_pay1 (pointSums (blkA m c 1) (blkB m c 1))
        (firstStore (pointSums (blkA m c 0) (blkB m c 0)))))

/-- The host lines after the region, as one function of the result array. -/
def hostTail (x : Vec F S1x1x2 .f32) : Vec F S_ .f32 :=
  Host.divf
    (addf
      (Host.divf (shapeCast S_ (extractStridedSlice S1x1x1 ![0, 0, 0] x slices_S1x1x2_S1x1x1_0_0_0) shapeCasts_S1x1x1_S_) (constant S_ .f32 0x45800000#32))
      (Host.divf (shapeCast S_ (extractStridedSlice S1x1x1 ![0, 0, 1] x slices_S1x1x2_S1x1x1_0_0_1) shapeCasts_S1x1x1_S_) (constant S_ .f32 0x45800000#32)))
    (constant S_ .f32 0x424CCCCD#32)

/-! ## The blocks and the running pair -/

/-- The two input windows' blocks at a point, as plain [1, 4096, 64] vectors. -/
abbrev ablk (c : Dev nD) (t : Fin cfg0.N) : Vec F S1x4096x64 .f32 := iblk m c 0 t
abbrev bblk (c : Dev nD) (t : Fin cfg0.N) : Vec F S1x4096x64 .f32 := iblk m c 1 t

/-- Point number `n` of the grid (numbers past the grid wrap; only 0 … 3 are used). -/
def pt (n : ℕ) : Fin cfg0.N := ⟨n % 4, by show n % 4 < grid0.N; rw [N_0]; omega⟩

theorem pt_val (t : Fin cfg0.N) : pt t.val = t := by
  have h : t.val < 4 := lt_of_lt_of_eq t.isLt (show cfg0.N = 4 from N_0)
  exact Fin.ext (Nat.mod_eq_of_lt h)

/-- What the output block holds after point `n`: the first point's pair, each later point's added on. -/
def accN (c : Dev nD) : ℕ → Vec F S1x1x2 .f32
  | 0 => firstStore (pointSums (ablk m c (pt 0)) (bblk m c (pt 0)))
  | n + 1 => k0_pay1 (pointSums (ablk m c (pt (n + 1))) (bblk m c (pt (n + 1)))) (accN c n)

/-! ## The proof data -/

/-- The arrays as the region finds them; after the body at point `t` each input's buffer at its block and the output's
    at the running pair. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => accN m c t.val
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = accN m c t.val := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The schedule, decided over the four points -/

theorem cond1_iff : ∀ t : Fin cfg0.N, k0_cond1 (grid0.coords t) = 1#1 ↔ t.val = 0 :=
  (by decide +kernel : ∀ t : Fin grid0.N, k0_cond1 (grid0.coords t) = 1#1 ↔ t.val = 0)
theorem cond2_iff : ∀ t : Fin cfg0.N, k0_cond2 (grid0.coords t) = 1#1 ↔ 1 ≤ t.val :=
  (by decide +kernel : ∀ t : Fin grid0.N, k0_cond2 (grid0.coords t) = 1#1 ↔ 1 ≤ t.val)
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- Every point stores into the output block: one of the two conditions holds at each coordinate. -/
theorem live2_all : ∀ i : grid0.Coords, cfg0.idle 2 i = false := by decide +kernel
theorem clip2_none : ∀ (i : grid0.Coords) (a : Fin S1x1x2.rank), (cfg0.win 2).clip i a = none := by decide +kernel

theorem noflush2 (t : Fin cfg0.N) (h : t.val % 4 ≠ 3) : (cfg0.win 2).flush t = false := by
  cases hf : (cfg0.win 2).flush t
  · rfl
  · exact absurd ((flush0_2 t).mp hf) h

/-- At the first point the output's buffer holds anything. -/
theorem before0_2_first (c : Dev nD) (t : Fin cfg0.N) (ht : t.val = 0) (d) : (dats m 0 c).before 2 t d = d :=
  (dats m 0 c).before_out_reset 2 rfl t (.inl ht) d

/-- At a later point it holds what the point before left: the running pair. -/
theorem before0_2_later (c : Dev nD) (t : Fin cfg0.N) (n : ℕ) (hn : t.val = n + 1) (d) :
    (dats m 0 c).before 2 t d = accN m c n := by
  have h4 : t.val < 4 := lt_of_lt_of_eq t.isLt (show cfg0.N = 4 from N_0)
  rw [(dats m 0 c).before_out_kept 2 rfl t (by omega) (noflush2 _ (by simp only; omega)) live2_all clip2_none d, after0_2]
  simp only [hn, Nat.add_sub_cancel]

/-! ## The body obligation -/

/-- Each window's current staging memref at point `t`, as the pipeline passes it. -/
abbrev ms0_0 (t : Fin cfg0.N) : Memref sig .tc .vmem S1x4096x64 .f32 := win0_0.stage (cfg0.slots t 0)
abbrev ms0_1 (t : Fin cfg0.N) : Memref sig .tc .vmem S1x4096x64 .f32 := win0_1.stage (cfg0.slots t 1)
abbrev ms0_2 (t : Fin cfg0.N) : Memref sig .tc .vmem S1x1x2 .f32 := win0_2.stage (cfg0.slots t 2)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

theorem leaves0 (c : Dev nD) (t : Fin cfg0.N) :
    (dats m 0 c).leavesExact 0 t = owns (c : Thread nD τ) (ms0_0 t) fullShare (iblk m c 0 t) := by
  unfold Dat.leavesExact; rw [live0 t, after0_0]
theorem leaves1 (c : Dev nD) (t : Fin cfg0.N) :
    (dats m 0 c).leavesExact 1 t = owns (c : Thread nD τ) (ms0_1 t) fullShare (iblk m c 1 t) := by
  unfold Dat.leavesExact; rw [live1 t, after0_1]
theorem leaves2 (c : Dev nD) (t : Fin cfg0.N) :
    (dats m 0 c).leavesExact 2 t = owns (c : Thread nD τ) (ms0_2 t) fullShare (accN m c t.val) := by
  unfold Dat.leavesExact; rw [live2 t, after0_2]

set_option maxHeartbeats 800000 in
/-- The body at any point: the inputs' memrefs hold their blocks; at the first point the output's holds anything and
    ends at the point's pair; at a later point it holds the running pair and ends with the point's pair added. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl]
  rw [leaves0, leaves1, leaves2]
  have h4 : t.val < 4 := lt_of_lt_of_eq t.isLt (show cfg0.N = 4 from N_0)
  by_cases h0 : t.val = 0
  · simp only [before0_2_first m c t h0]
    iintro ⟨HΦ, Ho, ⟨%d0, H0⟩, ⟨%d1, H1⟩, ⟨%d2, H2⟩⟩
    iapply ((bodyRun_first c (grid0.coords t) _ _ _ _ _ _ ((cond1_iff t).mpr h0)
      (fun h => by have := (cond2_iff t).mp h; omega) (ablk m c t) (bblk m c t)) Set.univ _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    rw [show accN m c t.val = firstStore (pointSums (ablk m c t) (bblk m c t)) from by
      rw [h0]; show firstStore (pointSums (ablk m c (pt 0)) (bblk m c (pt 0))) = _
      rw [show pt 0 = t from by rw [← h0]; exact pt_val t]]
    iexact H2
  · obtain ⟨n, hn⟩ : ∃ n, t.val = n + 1 := Nat.exists_eq_succ_of_ne_zero h0
    simp only [before0_2_later m c t n hn]
    iintro ⟨HΦ, Ho, ⟨%d0, H0⟩, ⟨%d1, H1⟩, ⟨%d2, H2⟩⟩
    iapply ((bodyRun_later c (grid0.coords t) _ _ _ _ _ _ (fun h => h0 ((cond1_iff t).mp h))
      ((cond2_iff t).mpr (by omega)) (ablk m c t) (bblk m c t) (accN m c n)) Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    rw [show accN m c t.val = k0_pay1 (pointSums (ablk m c t) (bblk m c t)) (accN m c n) from by
      rw [hn]; show k0_pay1 (pointSums (ablk m c (pt (n + 1))) (bblk m c (pt (n + 1)))) (accN m c n) = _
      rw [show pt (n + 1) = t from by rw [← hn]; exact pt_val t]]
    iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution terminates with every array of the pipeline at what the proof data compute — the output
    at the last point's running pair written back — and every other buffer at the host lines' results. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-! ## The blocks are the batches -/

/-- The printed index maps, decided over the grid: the inputs' block index is the point's number on the batch axis and
    zero elsewhere; the output's is zero. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0 :=
  (by decide +kernel : ∀ t : Fin grid0.N, _)

theorem pt_of_fin4 (k : Fin 4) : (pt k.val).val = k.val := Nat.mod_eq_of_lt k.isLt

/-- The first window's block at point `k` is batch `k` of the first argument array. -/
theorem ablk_eq (c : Dev nD) (k : Fin 4) : ablk m c (pt k.val) = blkA m c k := by
  funext j
  show ((cfg0.win 0).blk (pt k.val)).view.read (Elt F) (V m c (Pipeline.arrRef spec0 0)) j = _
  rw [View.read_apply]
  show V m c main_arg0 _ = (m ((c : Thread nD τ).loc main_arg0) : Vec F S4x4096x64 .f32) (ix3 k (j 1) (j 2))
  rw [V_main_arg0]
  refine congrArg _ ?_
  obtain ⟨e0, e1, e2, -⟩ := idx_facts (pt k.val)
  have hk := pt_of_fin4 k
  funext a; apply Fin.ext
  match a with
  | ⟨0, _⟩ => show win0_0.index (pt k.val) (0 : Fin 3) * 1 + 1 * (j 0).val = k.val; have hj : (j 0).val < 1 := (j 0).isLt; omega
  | ⟨1, _⟩ => show win0_0.index (pt k.val) (1 : Fin 3) * 4096 + 1 * (j 1).val = (j 1).val; omega
  | ⟨2, _⟩ => show win0_0.index (pt k.val) (2 : Fin 3) * 64 + 1 * (j 2).val = (j 2).val; omega

/-- The second window's block at point `k` is batch `k` of the second argument array. -/
theorem bblk_eq (c : Dev nD) (k : Fin 4) : bblk m c (pt k.val) = blkB m c k := by
  funext j
  show ((cfg0.win 1).blk (pt k.val)).view.read (Elt F) (V m c (Pipeline.arrRef spec0 1)) j = _
  rw [View.read_apply]
  show V m c main_arg1 _ = (m ((c : Thread nD τ).loc main_arg1) : Vec F S4x4096x64 .f32) (ix3 k (j 1) (j 2))
  rw [V_main_arg1]
  refine congrArg _ ?_
  obtain ⟨-, -, -, e0, e1, e2, -⟩ := idx_facts (pt k.val)
  have hk := pt_of_fin4 k
  funext a; apply Fin.ext
  match a with
  | ⟨0, _⟩ => show win0_1.index (pt k.val) (0 : Fin 3) * 1 + 1 * (j 0).val = k.val; have hj : (j 0).val < 1 := (j 0).isLt; omega
  | ⟨1, _⟩ => show win0_1.index (pt k.val) (1 : Fin 3) * 4096 + 1 * (j 1).val = (j 1).val; omega
  | ⟨2, _⟩ => show win0_1.index (pt k.val) (2 : Fin 3) * 64 + 1 * (j 2).val = (j 2).val; omega

/-- After the last point the running pair is the four batches' pairs added in order. -/
theorem accN_three (c : Dev nD) : accN m c 3 = accFinal m c := by
  show k0_pay1 (pointSums (ablk m c (pt 3)) (bblk m c (pt 3)))
      (k0_pay1 (pointSums (ablk m c (pt 2)) (bblk m c (pt 2)))
        (k0_pay1 (pointSums (ablk m c (pt 1)) (bblk m c (pt 1)))
          (firstStore (pointSums (ablk m c (pt 0)) (bblk m c (pt 0)))))) = _
  have a3 : ablk m c (pt 3) = blkA m c 3 := ablk_eq m c 3
  have a2 : ablk m c (pt 2) = blkA m c 2 := ablk_eq m c 2
  have a1 : ablk m c (pt 1) = blkA m c 1 := ablk_eq m c 1
  have a0 : ablk m c (pt 0) = blkA m c 0 := ablk_eq m c 0
  have b3 : bblk m c (pt 3) = blkB m c 3 := bblk_eq m c 3
  have b2 : bblk m c (pt 2) = blkB m c 2 := bblk_eq m c 2
  have b1 : bblk m c (pt 1) = blkB m c 1 := bblk_eq m c 1
  have b0 : bblk m c (pt 0) = blkB m c 0 := bblk_eq m c 0
  rw [a3, a2, a1, a0, b3, b2, b1, b0]
  rfl

/-! ## The result array when the region ends -/

/-- The one write-back, after the last point, writes the running pair over the whole array. -/
theorem flushed2_eq (c : Dev nD) (t : Fin cfg0.N) (hf : (cfg0.win 2).flush t = true) :
    (dats m 0 c).flushed 2 t = ((cfg0.win 2).blk t).view.read (Elt F) (accN m c 3) := by
  have h4 : t.val < 4 := lt_of_lt_of_eq t.isLt (show cfg0.N = 4 from N_0)
  have h3 : t.val = 3 := by have := (flush0_2 t).mp hf; omega
  show (cfg0.win 2).cut (grid0.coords t) ((dats m 0 c).after 2 t) = _
  rw [after0_2, h3]
  obtain ⟨-, -, -, -, -, -, e0, e1, e2⟩ := idx_facts t
  funext j
  show accN m c 3 ((cfg0.win 2).xinj (grid0.coords t) j) = accN m c 3 (((cfg0.win 2).blk t).view.emb j)
  refine congrArg _ ?_
  funext a; apply Fin.ext
  match a with
  | ⟨0, _⟩ => show (j 0).val = win0_2.index t (0 : Fin 3) * 1 + 1 * (j 0).val; omega
  | ⟨1, _⟩ => show (j 1).val = win0_2.index t (1 : Fin 3) * 1 + 1 * (j 1).val; omega
  | ⟨2, _⟩ => show (j 2).val = win0_2.index t (2 : Fin 3) * 2 + 1 * (j 2).val; omega

/-- Every index of the result array lies in the block the last point writes back. -/
theorem covered2 (i : S1x1x2.Idx) :
    ∃ t : Fin cfg0.N, (cfg0.win 2).flush t = true ∧ i ∈ ((cfg0.win 2).blk t).view.set := by
  refine ⟨pt 3, (flush0_2 (pt 3)).mpr (by decide), ?_⟩
  obtain ⟨-, -, -, -, -, -, e0, e1, e2⟩ := idx_facts (pt 3)
  show i ∈ ((View.whole main_v0).slice (win0_2.rect (pt 3))).set
  rw [View.set_slice_whole, Rect.mem_set_unit]
  intro a
  match a with
  | ⟨0, _⟩ => show win0_2.index (pt 3) (0 : Fin 3) * 1 ≤ (i 0).val ∧ (i 0).val < win0_2.index (pt 3) (0 : Fin 3) * 1 + 1; have hi : (i 0).val < 1 := (i 0).isLt; omega
  | ⟨1, _⟩ => show win0_2.index (pt 3) (1 : Fin 3) * 1 ≤ (i 1).val ∧ (i 1).val < win0_2.index (pt 3) (1 : Fin 3) * 1 + 1; have hi : (i 1).val < 1 := (i 1).isLt; omega
  | ⟨2, _⟩ => show win0_2.index (pt 3) (2 : Fin 3) * 2 ≤ (i 2).val ∧ (i 2).val < win0_2.index (pt 3) (2 : Fin 3) * 2 + 2; have hi : (i 2).val < 2 := (i 2).isLt; omega

/-- The result array after the region: the four batches' pairs added in order. -/
theorem final2 (c : Dev nD) : (dats m 0 c).arrAt 2 cfg0.N = accFinal m c :=
  ((dats m 0 c).arrAt_eq_of_cover 2 (accN m c 3) (fun t hf => flushed2_eq m c t hf) covered2).trans (accN_three m c)

/-! ## The host lines after the region -/

theorem tail_eq (c : Dev nD) :
    Pipeline.afterTail₀ cfgs (dats m) 0 (V0 m) [hostOps1] c main_v8 = hostTail (accFinal m c) := by
  unfold Pipeline.afterTail₀
  show StableHlo.after hostOps1 _ (Proc.devRef .tc main_v8) = _
  after_results
  have e : Pipeline.withArrays (cfgs 0).spec c (V0 m c) (fun w => (dats m 0 c).arrAt w (cfgs 0).N) (Proc.devRef .tc main_v0)
      = accFinal m c :=
    (Pipeline.withArrays_arr spec0 launch0.win.arr_inj c _ _ 2).trans (final2 m c)
  rw [e]
  rfl

/-- Every weakly fair execution terminates with the result at the host lines of the accumulated pair, the argument
    arrays unchanged. -/
theorem run_value : θ_run defs (onTc (τ := τ) (main (F := F))) ⟨m, fun _ => 0, ρ⟩ (fun r => ∀ c : Dev nD,
      r.2.mem ((c.tc : Thread nD τ).loc main_v8) = hostTail (accFinal m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v8 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

/-- The frame claim's post, from the run. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_value m ρ)

end Cert.Kernel.Acc

end
-- ==== Proof.AccDefsKi.lean ====
/-
  The values one grid point of the region computes, named: the two halves of the first set's [1, 4096, 64] block as
  the body's two loads read them, the pair of sums the point computes from them and the second set's block, and the
  recast of a pair to the output block's shape. Stated at any float instance.
-/
import proofs.«178844_g68143951118336_cont_9to1c4b_323_21_alg».proof.Proof.Gen.KernelIdeal.Skeleton
import Idealize.ShloMosaic.Lib.ValueIdx

noncomputable section

namespace Cert.KernelIdeal.Acc

open Idealize.ShloMosaic Idealize.ShloMosaic.ValueIdx Idealize.SL.Sem
open Cert.KernelIdeal Cert.KernelIdeal.Gen

variable {F : FTy → Type} [FloatOps F]

/-- Rows 0 … 2047 of a [1, 4096, 64] block: what the body's first load of the first window reads. -/
def topHalf (x : Vec F S1x4096x64 .f32) : Vec F S1x2048x64 .f32 :=
  fun j => x (ix3 (0 : Fin 1) (⟨(j 1).val, by have := (j 1).isLt; simp only [Matrix.cons_val_one, Matrix.cons_val_zero] at this; omega⟩ : Fin 4096) (⟨(j 2).val, by have := (j 2).isLt; simpa using this⟩ : Fin 64))
/-- Rows 2048 … 4095: what its second load reads. -/
def botHalf (x : Vec F S1x4096x64 .f32) : Vec F S1x2048x64 .f32 :=
  fun j => x (ix3 (0 : Fin 1) (⟨(j 1).val + 2048, by have := (j 1).isLt; simp only [Matrix.cons_val_one, Matrix.cons_val_zero] at this; omega⟩ : Fin 4096) (⟨(j 2).val, by have := (j 2).isLt; simpa using this⟩ : Fin 64))

theorem topHalf_apply (x : Vec F S1x4096x64 .f32) (n : Fin 2048) (d : Fin 64) :
    topHalf x (ix3 (0 : Fin 1) n d) = x (ix3 (0 : Fin 1) (⟨n.val, by have := n.isLt; omega⟩ : Fin 4096) d) := rfl
theorem botHalf_apply (x : Vec F S1x4096x64 .f32) (n : Fin 2048) (d : Fin 64) :
    botHalf x (ix3 (0 : Fin 1) n d) = x (ix3 (0 : Fin 1) (⟨n.val + 2048, by have := n.isLt; omega⟩ : Fin 4096) d) := rfl

/-- The pair of sums one point computes from the two windows' blocks (first set `a`, second set `b`). -/
def pointSums (a b : Vec F S1x4096x64 .f32) : FVec F S1x2 .f32 :=
  k0_pay6 (k0_pay2 b) (k0_pay4 b (topHalf a)) (k0_pay5 b (topHalf a)) (botHalf a)

/-- What the first point stores: its pair, recast to the block's shape. -/
def firstStore (p : FVec F S1x2 .f32) : FVec F S1x1x2 .f32 := shapeCast S1x1x2 p shapeCasts_S1x2_S1x1x2

end Cert.KernelIdeal.Acc

end
-- ==== Proof.BodyKi.lean ====
/-
  The kernel body's two runs with the output block NAMED. At the first grid point the body stores the point's pair
  of sums into the output block, whatever was there; at every later point it loads the block and stores it back with
  the point's pair added. Either way the two input blocks are left as they were. Stated at any float instance, on any
  whole staging memrefs.
-/
import proofs.«178844_g68143951118336_cont_9to1c4b_323_21_alg».proof.Proof.Gen.KernelIdeal.Frame
import proofs.«178844_g68143951118336_cont_9to1c4b_323_21_alg».proof.Proof.AccDefsKi
import Idealize.ShloMosaic.Lib.Pipeline.Value

set_option maxRecDepth 16384

noncomputable section

namespace Cert.KernelIdeal.Acc

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ### The loads' rectangles and the one store

Each access goes through a unit-stride rectangle at literal offsets: coordinate `j` on an axis goes to
`offset + 1 · j`. At zero offsets and the block's own sizes that is the identity, so a whole-block load reads the
contents and the one whole-block store leaves its payload; the two half loads of the first window read rows
`j` and `2048 + j`. -/

/-- The zero offsets of a rank-3 access, as the constant function. -/
theorem off3_zero : (![0, 0, 0] : Fin 3 → ℕ) = fun _ => 0 := by
  funext a; fin_cases a <;> rfl

omit [FloatOps F] in
/-- The load of rows 0 … 2047 reads the block's top half: the rectangle sends coordinate `j` on each axis to
    `0 + 1 · j` (the leading axis has the one coordinate 0). -/
theorem ld_top (x : Vec F S1x4096x64 .f32) :
    View.ld x (Rect.unit (s := S1x4096x64) ![0, 0, 0] S1x2048x64.size inb_S1x4096x64_S1x2048x64_0_0_0) = topHalf x := by
  funext j
  refine congrArg x (funext fun a => ?_)
  match a with
  | ⟨0, _⟩ =>
    apply Fin.ext
    have h : (j 0).val < 1 := (j 0).isLt
    show 0 + 1 * (j 0).val = 0
    omega
  | ⟨1, _⟩ =>
    apply Fin.ext
    show 0 + 1 * (j 1).val = (j 1).val
    omega
  | ⟨2, _⟩ =>
    apply Fin.ext
    show 0 + 1 * (j 2).val = (j 2).val
    omega

omit [FloatOps F] in
/-- The load of rows 2048 … 4095 reads its bottom half: on the row axis coordinate `j` goes to `2048 + 1 · j`. -/
theorem ld_bot (x : Vec F S1x4096x64 .f32) :
    View.ld x (Rect.unit (s := S1x4096x64) ![0, 2048, 0] S1x2048x64.size inb_S1x4096x64_S1x2048x64_0_2048_0) = botHalf x := by
  funext j
  refine congrArg x (funext fun a => ?_)
  match a with
  | ⟨0, _⟩ =>
    apply Fin.ext
    have h : (j 0).val < 1 := (j 0).isLt
    show 0 + 1 * (j 0).val = 0
    omega
  | ⟨1, _⟩ =>
    apply Fin.ext
    show 2048 + 1 * (j 1).val = (j 1).val + 2048
    omega
  | ⟨2, _⟩ =>
    apply Fin.ext
    show 0 + 1 * (j 2).val = (j 2).val
    omega

/-- One store through the output block's whole rectangle leaves its payload, whatever the block held: the one piece
    covers every index, so the block reads as the canonical contents of that piece, which is the payload. -/
theorem read_one_store (v : View sig .tc .vmem S1x1x2 .f32) (f : v.ty.Contents (Elt F)) (w : S1x1x2.Idx → Elt F .f32) :
    v.read (Elt F) (v.writes (Elt F) f [⟨Rect.unit ![0, 0, 0] S1x1x2.size inb_S1x1x2_S1x1x2_0_0_0, w⟩]) = w := by
  have hcov : ∀ y : S1x1x2.Idx, ∃ p ∈ [(⟨Rect.unit ![0, 0, 0] S1x1x2.size inb_S1x1x2_S1x1x2_0_0_0, w⟩ : View.Piece (Elt F) S1x1x2 .f32)],
      y ∈ p.1.set :=
    fun y => ⟨_, List.mem_singleton_self _, View.mem_set_unit_zero (S := S1x1x2) off3_zero inb_S1x1x2_S1x1x2_0_0_0 y⟩
  rw [View.read_writes_eq_canon v f _ hcov, View.canon_unit_zero (S := S1x1x2) off3_zero]

/-! ### The two runs -/

set_option maxHeartbeats 1000000 in
/-- The first point (`program_id == 0`): the block ends at the point's pair. -/
theorem bodyRun_first (c : Dev nD) (i : grid0.Coords) (arg1 : Memref sig .tc .vmem S1x4096x64 .f32) (harg1 : arg1.IsWhole) (arg2 : Memref sig .tc .vmem S1x4096x64 .f32) (harg2 : arg2.IsWhole) (arg3 : Memref sig .tc .vmem S1x1x2 .f32) (harg3 : arg3.IsWhole)
    (hc0 : k0_cond1 i = 1#1) (hc1 : ¬ k0_cond2 i = 1#1)
    (x0 : Vec F S1x4096x64 .f32) (x1 : Vec F S1x4096x64 .f32) :
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1
                ∗ owns (c : Thread nD τ) arg3 fullShare (firstStore (pointSums x0 x1))) -∗ K ⟨⟩))
          ⊢ wp frame (wpE (defs₀ (F := F)) Variants.none c none) E (cc0__chamfer_batch_kernel i arg1 harg1 arg2 harg2 arg3 harg3) K := by
  intro E K
  -- the body and its two parts as sequences of memory operations over the named payloads
  simp only [cc0__chamfer_batch_kernel_eq_skeleton]; unfold cc0__chamfer_batch_kernel_skel
  simp only [k0_part1_eq_skeleton, k0_part2_eq_skeleton]; unfold k0_part1_skel k0_part2_skel
  unfold owns
  iintro ⟨⟨%f0, %hf0, H0⟩, ⟨%f1, %hf1, H1⟩, ⟨%d, %f2, %hf2, H2⟩, Hk⟩
  -- a whole memref's contents are determined by what is read through it
  obtain rfl := harg1.eq_unread hf0; obtain rfl := harg2.eq_unread hf1
  -- the three loads of the inputs, the first conditional taken (the block's dead load, then its one store), the second not
  sl_exec (disch := first | exact hc0 | exact hc1)
  sl_step
  iapply Hk
  -- the inputs are as they were
  isplitl [H0]
  · iexists _; isplitr; · ipureintro; exact harg1.read_unread _
    iexact H0
  isplitl [H1]
  · iexists _; isplitr; · ipureintro; exact harg2.read_unread _
    iexact H1
  -- the output block reads as the one store's payload, computed from the second block whole and the first block's halves
  iexists _; isplitr; rotate_left
  · iexact H2
  · ipureintro
    refine (read_one_store _ _ _).trans ?_
    dsimp only
    simp only [View.readAt_eq_ld, harg1.read_unread, harg2.read_unread, View.ld_unit_zero (S := S1x4096x64) off3_zero]
    rw [ld_top x0, ld_bot x0]
    rfl

set_option maxHeartbeats 1000000 in
/-- A later point (`program_id > 0`): the block, found at `d`, ends at `d` with the point's pair added. -/
theorem bodyRun_later (c : Dev nD) (i : grid0.Coords) (arg1 : Memref sig .tc .vmem S1x4096x64 .f32) (harg1 : arg1.IsWhole) (arg2 : Memref sig .tc .vmem S1x4096x64 .f32) (harg2 : arg2.IsWhole) (arg3 : Memref sig .tc .vmem S1x1x2 .f32) (harg3 : arg3.IsWhole)
    (hc0 : ¬ k0_cond1 i = 1#1) (hc1 : k0_cond2 i = 1#1)
    (x0 : Vec F S1x4096x64 .f32) (x1 : Vec F S1x4096x64 .f32) (d : Vec F S1x1x2 .f32) :
      ∀ (E : Set ℕ) (K : PUnit → sProp 𝕄),
        iprop(owns (c : Thread nD τ) arg1 fullShare x0 ∗ owns (c : Thread nD τ) arg2 fullShare x1 ∗ owns (c : Thread nD τ) arg3 fullShare d
            ∗ (iprop(owns (c : Thread nD τ) arg1 fullShare x0 ∗ owns (c : Thread nD τ) arg2 fullShare x1
                ∗ owns (c : Thread nD τ) arg3 fullShare (k0_pay1 (pointSums x0 x1) d)) -∗ K ⟨⟩))
          ⊢ wp frame (wpE (defs₀ (F := F)) Variants.none c none) E (cc0__chamfer_batch_kernel i arg1 harg1 arg2 harg2 arg3 harg3) K := by
  intro E K
  -- the body and its two parts as sequences of memory operations over the named payloads
  simp only [cc0__chamfer_batch_kernel_eq_skeleton]; unfold cc0__chamfer_batch_kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, Hk⟩
  -- a whole memref's contents are determined by what is read through it
  obtain rfl := harg1.eq_unread hf0; obtain rfl := harg2.eq_unread hf1; obtain rfl := harg3.eq_unread hf2
  -- the three loads of the inputs, the first conditional not taken, the second taken: the block loaded (twice, once dead)
  -- and stored back with the point's pair added
  sl_exec (disch := first | exact hc0 | exact hc1)
  sl_step
  iapply Hk
  -- the inputs are as they were
  isplitl [H0]
  · iexists _; isplitr; · ipureintro; exact harg1.read_unread _
    iexact H0
  isplitl [H1]
  · iexists _; isplitr; · ipureintro; exact harg2.read_unread _
    iexact H1
  -- the output block reads as the one store's payload: the pair, computed as at the first point, added to what the
  -- block's load read, which is what the block held
  iexists _; isplitr; rotate_left
  · iexact H2
  · ipureintro
    refine (read_one_store _ _ _).trans ?_
    dsimp only
    simp only [View.readAt_eq_ld, harg1.read_unread, harg2.read_unread, harg3.read_unread,
      View.ld_unit_zero (S := S1x4096x64) off3_zero, View.ld_unit_zero (S := S1x1x2) off3_zero]
    rw [ld_top x0, ld_bot x0]
    rfl

end Cert.KernelIdeal.Acc

end
-- ==== Proof.RunKi.lean ====
/-
  The run of the program with its one region's OUTPUT NAMED. The region visits the four batches in order; the
  output window's block is the whole [1, 1, 2] result array at every point and is written back only after the last,
  so its staging buffer carries the running pair of sums: the first point stores its pair, every later point loads
  what is there and stores that plus its own pair. After the region the host lines divide each total by 4096, add the
  two quotients and divide by one constant. Stated at any float instance.
-/
import proofs.«178844_g68143951118336_cont_9to1c4b_323_21_alg».proof.Proof.BodyKi
import Idealize.ShloMosaic.Lib.StableHlo.Run
import Idealize.ShloMosaic.Lib.Pipeline.Value

set_option maxRecDepth 16384

noncomputable section

namespace Cert.KernelIdeal.Acc

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Batch `t` of the first and of the second argument array, as a [1, 4096, 64] block. -/
def blkA (c : Dev nD) (t : Fin 4) : Vec F S1x4096x64 .f32 :=
  fun j => (m ((c : Thread nD τ).loc main_arg0) : Vec F S4x4096x64 .f32) (ix3 t (j 1) (j 2))
def blkB (c : Dev nD) (t : Fin 4) : Vec F S1x4096x64 .f32 :=
  fun j => (m ((c : Thread nD τ).loc main_arg1) : Vec F S4x4096x64 .f32) (ix3 t (j 1) (j 2))

/-- The result array when the region ends: the first batch's pair, then the three later batches' pairs added on in order. -/
def accFinal (c : Dev nD) : Vec F S1x1x2 .f32 :=
  k0_pay1 (pointSums (blkA m c 3) (blkB m c 3))
    (k0_pay1 (pointSums (blkA m c 2) (blkB m c 2))
      (k0_pay1 (pointSums (blkA m c 1) (blkB m c 1))
        (firstStore (pointSums (blkA m c 0) (blkB m c 0)))))

/-- The host lines after the region, as one function of the result array. -/
def hostTail (x : Vec F S1x1x2 .f32) : Vec F S_ .f32 :=
  Host.divf
    (addf
      (Host.divf (shapeCast S_ (extractStridedSlice S1x1x1 ![0, 0, 0] x slices_S1x1x2_S1x1x1_0_0_0) shapeCasts_S1x1x1_S_) (constant S_ .f32 0x45800000#32))
      (Host.divf (shapeCast S_ (extractStridedSlice S1x1x1 ![0, 0, 1] x slices_S1x1x2_S1x1x1_0_0_1) shapeCasts_S1x1x1_S_) (constant S_ .f32 0x45800000#32)))
    (constant S_ .f32 0x424CCCCD#32)

/-! ## The blocks and the running pair -/

/-- The two input windows' blocks at a point, as plain [1, 4096, 64] vectors. -/
abbrev ablk (c : Dev nD) (t : Fin cfg0.N) : Vec F S1x4096x64 .f32 := iblk m c 0 t
abbrev bblk (c : Dev nD) (t : Fin cfg0.N) : Vec F S1x4096x64 .f32 := iblk m c 1 t

/-- Point number `n` of the grid (numbers past the grid wrap; only 0 … 3 are used). -/
def pt (n : ℕ) : Fin cfg0.N := ⟨n % 4, by show n % 4 < grid0.N; rw [N_0]; omega⟩

theorem pt_val (t : Fin cfg0.N) : pt t.val = t := by
  have h : t.val < 4 := lt_of_lt_of_eq t.isLt (show cfg0.N = 4 from N_0)
  exact Fin.ext (Nat.mod_eq_of_lt h)

/-- What the output block holds after point `n`: the first point's pair, each later point's added on. -/
def accN (c : Dev nD) : ℕ → Vec F S1x1x2 .f32
  | 0 => firstStore (pointSums (ablk m c (pt 0)) (bblk m c (pt 0)))
  | n + 1 => k0_pay1 (pointSums (ablk m c (pt (n + 1))) (bblk m c (pt (n + 1)))) (accN c n)

/-! ## The proof data -/

/-- The arrays as the region finds them; after the body at point `t` each input's buffer at its block and the output's
    at the running pair. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => accN m c t.val
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = accN m c t.val := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The schedule, decided over the four points -/

theorem cond1_iff : ∀ t : Fin cfg0.N, k0_cond1 (grid0.coords t) = 1#1 ↔ t.val = 0 :=
  (by decide +kernel : ∀ t : Fin grid0.N, k0_cond1 (grid0.coords t) = 1#1 ↔ t.val = 0)
theorem cond2_iff : ∀ t : Fin cfg0.N, k0_cond2 (grid0.coords t) = 1#1 ↔ 1 ≤ t.val :=
  (by decide +kernel : ∀ t : Fin grid0.N, k0_cond2 (grid0.coords t) = 1#1 ↔ 1 ≤ t.val)
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- Every point stores into the output block: one of the two conditions holds at each coordinate. -/
theorem live2_all : ∀ i : grid0.Coords, cfg0.idle 2 i = false := by decide +kernel
theorem clip2_none : ∀ (i : grid0.Coords) (a : Fin S1x1x2.rank), (cfg0.win 2).clip i a = none := by decide +kernel

theorem noflush2 (t : Fin cfg0.N) (h : t.val % 4 ≠ 3) : (cfg0.win 2).flush t = false := by
  cases hf : (cfg0.win 2).flush t
  · rfl
  · exact absurd ((flush0_2 t).mp hf) h

/-- At the first point the output's buffer holds anything. -/
theorem before0_2_first (c : Dev nD) (t : Fin cfg0.N) (ht : t.val = 0) (d) : (dats m 0 c).before 2 t d = d :=
  (dats m 0 c).before_out_reset 2 rfl t (.inl ht) d

/-- At a later point it holds what the point before left: the running pair. -/
theorem before0_2_later (c : Dev nD) (t : Fin cfg0.N) (n : ℕ) (hn : t.val = n + 1) (d) :
    (dats m 0 c).before 2 t d = accN m c n := by
  have h4 : t.val < 4 := lt_of_lt_of_eq t.isLt (show cfg0.N = 4 from N_0)
  rw [(dats m 0 c).before_out_kept 2 rfl t (by omega) (noflush2 _ (by simp only; omega)) live2_all clip2_none d, after0_2]
  simp only [hn, Nat.add_sub_cancel]

/-! ## The body obligation -/

/-- Each window's current staging memref at point `t`, as the pipeline passes it. -/
abbrev ms0_0 (t : Fin cfg0.N) : Memref sig .tc .vmem S1x4096x64 .f32 := win0_0.stage (cfg0.slots t 0)
abbrev ms0_1 (t : Fin cfg0.N) : Memref sig .tc .vmem S1x4096x64 .f32 := win0_1.stage (cfg0.slots t 1)
abbrev ms0_2 (t : Fin cfg0.N) : Memref sig .tc .vmem S1x1x2 .f32 := win0_2.stage (cfg0.slots t 2)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

theorem leaves0 (c : Dev nD) (t : Fin cfg0.N) :
    (dats m 0 c).leavesExact 0 t = owns (c : Thread nD τ) (ms0_0 t) fullShare (iblk m c 0 t) := by
  unfold Dat.leavesExact; rw [live0 t, after0_0]
theorem leaves1 (c : Dev nD) (t : Fin cfg0.N) :
    (dats m 0 c).leavesExact 1 t = owns (c : Thread nD τ) (ms0_1 t) fullShare (iblk m c 1 t) := by
  unfold Dat.leavesExact; rw [live1 t, after0_1]
theorem leaves2 (c : Dev nD) (t : Fin cfg0.N) :
    (dats m 0 c).leavesExact 2 t = owns (c : Thread nD τ) (ms0_2 t) fullShare (accN m c t.val) := by
  unfold Dat.leavesExact; rw [live2 t, after0_2]

set_option maxHeartbeats 800000 in
/-- The body at any point: the inputs' memrefs hold their blocks; at the first point the output's holds anything and
    ends at the point's pair; at a later point it holds the running pair and ends with the point's pair added. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl]
  rw [leaves0, leaves1, leaves2]
  have h4 : t.val < 4 := lt_of_lt_of_eq t.isLt (show cfg0.N = 4 from N_0)
  by_cases h0 : t.val = 0
  · simp only [before0_2_first m c t h0]
    iintro ⟨HΦ, Ho, ⟨%d0, H0⟩, ⟨%d1, H1⟩, ⟨%d2, H2⟩⟩
    iapply ((bodyRun_first c (grid0.coords t) _ _ _ _ _ _ ((cond1_iff t).mpr h0)
      (fun h => by have := (cond2_iff t).mp h; omega) (ablk m c t) (bblk m c t)) Set.univ _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    rw [show accN m c t.val = firstStore (pointSums (ablk m c t) (bblk m c t)) from by
      rw [h0]; show firstStore (pointSums (ablk m c (pt 0)) (bblk m c (pt 0))) = _
      rw [show pt 0 = t from by rw [← h0]; exact pt_val t]]
    iexact H2
  · obtain ⟨n, hn⟩ : ∃ n, t.val = n + 1 := Nat.exists_eq_succ_of_ne_zero h0
    simp only [before0_2_later m c t n hn]
    iintro ⟨HΦ, Ho, ⟨%d0, H0⟩, ⟨%d1, H1⟩, ⟨%d2, H2⟩⟩
    iapply ((bodyRun_later c (grid0.coords t) _ _ _ _ _ _ (fun h => h0 ((cond1_iff t).mp h))
      ((cond2_iff t).mpr (by omega)) (ablk m c t) (bblk m c t) (accN m c n)) Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    rw [show accN m c t.val = k0_pay1 (pointSums (ablk m c t) (bblk m c t)) (accN m c n) from by
      rw [hn]; show k0_pay1 (pointSums (ablk m c (pt (n + 1))) (bblk m c (pt (n + 1)))) (accN m c n) = _
      rw [show pt (n + 1) = t from by rw [← hn]; exact pt_val t]]
    iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution terminates with every array of the pipeline at what the proof data compute — the output
    at the last point's running pair written back — and every other buffer at the host lines' results. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-! ## The blocks are the batches -/

/-- The printed index maps, decided over the grid: the inputs' block index is the point's number on the batch axis and
    zero elsewhere; the output's is zero. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0 :=
  (by decide +kernel : ∀ t : Fin grid0.N, _)

theorem pt_of_fin4 (k : Fin 4) : (pt k.val).val = k.val := Nat.mod_eq_of_lt k.isLt

/-- The first window's block at point `k` is batch `k` of the first argument array. -/
theorem ablk_eq (c : Dev nD) (k : Fin 4) : ablk m c (pt k.val) = blkA m c k := by
  funext j
  show ((cfg0.win 0).blk (pt k.val)).view.read (Elt F) (V m c (Pipeline.arrRef spec0 0)) j = _
  rw [View.read_apply]
  show V m c main_arg0 _ = (m ((c : Thread nD τ).loc main_arg0) : Vec F S4x4096x64 .f32) (ix3 k (j 1) (j 2))
  rw [V_main_arg0]
  refine congrArg _ ?_
  obtain ⟨e0, e1, e2, -⟩ := idx_facts (pt k.val)
  have hk := pt_of_fin4 k
  funext a; apply Fin.ext
  match a with
  | ⟨0, _⟩ => show win0_0.index (pt k.val) (0 : Fin 3) * 1 + 1 * (j 0).val = k.val; have hj : (j 0).val < 1 := (j 0).isLt; omega
  | ⟨1, _⟩ => show win0_0.index (pt k.val) (1 : Fin 3) * 4096 + 1 * (j 1).val = (j 1).val; omega
  | ⟨2, _⟩ => show win0_0.index (pt k.val) (2 : Fin 3) * 64 + 1 * (j 2).val = (j 2).val; omega

/-- The second window's block at point `k` is batch `k` of the second argument array. -/
theorem bblk_eq (c : Dev nD) (k : Fin 4) : bblk m c (pt k.val) = blkB m c k := by
  funext j
  show ((cfg0.win 1).blk (pt k.val)).view.read (Elt F) (V m c (Pipeline.arrRef spec0 1)) j = _
  rw [View.read_apply]
  show V m c main_arg1 _ = (m ((c : Thread nD τ).loc main_arg1) : Vec F S4x4096x64 .f32) (ix3 k (j 1) (j 2))
  rw [V_main_arg1]
  refine congrArg _ ?_
  obtain ⟨-, -, -, e0, e1, e2, -⟩ := idx_facts (pt k.val)
  have hk := pt_of_fin4 k
  funext a; apply Fin.ext
  match a with
  | ⟨0, _⟩ => show win0_1.index (pt k.val) (0 : Fin 3) * 1 + 1 * (j 0).val = k.val; have hj : (j 0).val < 1 := (j 0).isLt; omega
  | ⟨1, _⟩ => show win0_1.index (pt k.val) (1 : Fin 3) * 4096 + 1 * (j 1).val = (j 1).val; omega
  | ⟨2, _⟩ => show win0_1.index (pt k.val) (2 : Fin 3) * 64 + 1 * (j 2).val = (j 2).val; omega

/-- After the last point the running pair is the four batches' pairs added in order. -/
theorem accN_three (c : Dev nD) : accN m c 3 = accFinal m c := by
  show k0_pay1 (pointSums (ablk m c (pt 3)) (bblk m c (pt 3)))
      (k0_pay1 (pointSums (ablk m c (pt 2)) (bblk m c (pt 2)))
        (k0_pay1 (pointSums (ablk m c (pt 1)) (bblk m c (pt 1)))
          (firstStore (pointSums (ablk m c (pt 0)) (bblk m c (pt 0)))))) = _
  have a3 : ablk m c (pt 3) = blkA m c 3 := ablk_eq m c 3
  have a2 : ablk m c (pt 2) = blkA m c 2 := ablk_eq m c 2
  have a1 : ablk m c (pt 1) = blkA m c 1 := ablk_eq m c 1
  have a0 : ablk m c (pt 0) = blkA m c 0 := ablk_eq m c 0
  have b3 : bblk m c (pt 3) = blkB m c 3 := bblk_eq m c 3
  have b2 : bblk m c (pt 2) = blkB m c 2 := bblk_eq m c 2
  have b1 : bblk m c (pt 1) = blkB m c 1 := bblk_eq m c 1
  have b0 : bblk m c (pt 0) = blkB m c 0 := bblk_eq m c 0
  rw [a3, a2, a1, a0, b3, b2, b1, b0]
  rfl

/-! ## The result array when the region ends -/

/-- The one write-back, after the last point, writes the running pair over the whole array. -/
theorem flushed2_eq (c : Dev nD) (t : Fin cfg0.N) (hf : (cfg0.win 2).flush t = true) :
    (dats m 0 c).flushed 2 t = ((cfg0.win 2).blk t).view.read (Elt F) (accN m c 3) := by
  have h4 : t.val < 4 := lt_of_lt_of_eq t.isLt (show cfg0.N = 4 from N_0)
  have h3 : t.val = 3 := by have := (flush0_2 t).mp hf; omega
  show (cfg0.win 2).cut (grid0.coords t) ((dats m 0 c).after 2 t) = _
  rw [after0_2, h3]
  obtain ⟨-, -, -, -, -, -, e0, e1, e2⟩ := idx_facts t
  funext j
  show accN m c 3 ((cfg0.win 2).xinj (grid0.coords t) j) = accN m c 3 (((cfg0.win 2).blk t).view.emb j)
  refine congrArg _ ?_
  funext a; apply Fin.ext
  match a with
  | ⟨0, _⟩ => show (j 0).val = win0_2.index t (0 : Fin 3) * 1 + 1 * (j 0).val; omega
  | ⟨1, _⟩ => show (j 1).val = win0_2.index t (1 : Fin 3) * 1 + 1 * (j 1).val; omega
  | ⟨2, _⟩ => show (j 2).val = win0_2.index t (2 : Fin 3) * 2 + 1 * (j 2).val; omega

/-- Every index of the result array lies in the block the last point writes back. -/
theorem covered2 (i : S1x1x2.Idx) :
    ∃ t : Fin cfg0.N, (cfg0.win 2).flush t = true ∧ i ∈ ((cfg0.win 2).blk t).view.set := by
  refine ⟨pt 3, (flush0_2 (pt 3)).mpr (by decide), ?_⟩
  obtain ⟨-, -, -, -, -, -, e0, e1, e2⟩ := idx_facts (pt 3)
  show i ∈ ((View.whole main_v0).slice (win0_2.rect (pt 3))).set
  rw [View.set_slice_whole, Rect.mem_set_unit]
  intro a
  match a with
  | ⟨0, _⟩ => show win0_2.index (pt 3) (0 : Fin 3) * 1 ≤ (i 0).val ∧ (i 0).val < win0_2.index (pt 3) (0 : Fin 3) * 1 + 1; have hi : (i 0).val < 1 := (i 0).isLt; omega
  | ⟨1, _⟩ => show win0_2.index (pt 3) (1 : Fin 3) * 1 ≤ (i 1).val ∧ (i 1).val < win0_2.index (pt 3) (1 : Fin 3) * 1 + 1; have hi : (i 1).val < 1 := (i 1).isLt; omega
  | ⟨2, _⟩ => show win0_2.index (pt 3) (2 : Fin 3) * 2 ≤ (i 2).val ∧ (i 2).val < win0_2.index (pt 3) (2 : Fin 3) * 2 + 2; have hi : (i 2).val < 2 := (i 2).isLt; omega

/-- The result array after the region: the four batches' pairs added in order. -/
theorem final2 (c : Dev nD) : (dats m 0 c).arrAt 2 cfg0.N = accFinal m c :=
  ((dats m 0 c).arrAt_eq_of_cover 2 (accN m c 3) (fun t hf => flushed2_eq m c t hf) covered2).trans (accN_three m c)

/-! ## The host lines after the region -/

theorem tail_eq (c : Dev nD) :
    Pipeline.afterTail₀ cfgs (dats m) 0 (V0 m) [hostOps1] c main_v8 = hostTail (accFinal m c) := by
  unfold Pipeline.afterTail₀
  show StableHlo.after hostOps1 _ (Proc.devRef .tc main_v8) = _
  after_results
  have e : Pipeline.withArrays (cfgs 0).spec c (V0 m c) (fun w => (dats m 0 c).arrAt w (cfgs 0).N) (Proc.devRef .tc main_v0)
      = accFinal m c :=
    (Pipeline.withArrays_arr spec0 launch0.win.arr_inj c _ _ 2).trans (final2 m c)
  rw [e]
  rfl

/-- Every weakly fair execution terminates with the result at the host lines of the accumulated pair, the argument
    arrays unchanged. -/
theorem run_value : θ_run defs (onTc (τ := τ) (main (F := F))) ⟨m, fun _ => 0, ρ⟩ (fun r => ∀ c : Dev nD,
      r.2.mem ((c.tc : Thread nD τ).loc main_v8) = hostTail (accFinal m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v8 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

/-- The frame claim's post, from the run. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_value m ρ)

end Cert.KernelIdeal.Acc

end
-- ==== Proof.Spec.lean ====
/-
  The mathematics both programs compute, stated once over plain coordinate functions and free of any program:
  for two point sets (rows of 64 coordinates) the squared distance of a pair in the arrangement
  |a|² + |b|² − 2⟨a, b⟩, its clamp at zero and square root, the distance from each point to the nearest point of
  the other set, and the sums of those nearest distances — in two arrangements, "root of the minimum" and
  "minimum of the roots", which agree because clamping and taking a root are monotone.
-/
import Idealize.ShloMosaic.PureOps.Ideal
import Idealize.ShloMosaic.PureOps.Ideal.Laws
import Idealize.ShloMosaic.Lib.ValueIdx

noncomputable section

open scoped BigOperators

namespace Chamfer

open Idealize.ShloMosaic

/-- The squared norm of row `n`. -/
def sq {N : ℕ} (x : Fin N → Fin 64 → EReal) (n : Fin N) : EReal := ∑ d : Fin 64, x n d * x n d

/-- The inner product of row `n` of `a` with row `m` of `b`. -/
def dot {N M : ℕ} (a : Fin N → Fin 64 → EReal) (b : Fin M → Fin 64 → EReal) (n : Fin N) (m : Fin M) : EReal :=
  ∑ d : Fin 64, a n d * b m d

/-- The squared distance of row `n` of `a` from row `m` of `b`, as |a|² + |b|² − 2⟨a, b⟩. -/
def dist2 {N M : ℕ} (a : Fin N → Fin 64 → EReal) (b : Fin M → Fin 64 → EReal) (n : Fin N) (m : Fin M) : EReal :=
  (sq a n + sq b m) - (2 : EReal) * dot a b n m

/-- Clamp at zero, then the square root. -/
def root (x : EReal) : EReal := Ideal.sqrt (max x 0)

/-- The sum over the rows of `a` of the root of the least squared distance to a row of `b`. -/
def nearA {N M : ℕ} (a : Fin N → Fin 64 → EReal) (b : Fin M → Fin 64 → EReal) : EReal :=
  ∑ n : Fin N, root ((Finset.univ : Finset (Fin M)).fold min ⊤ fun m => dist2 a b n m)

/-- The sum over the rows of `b` of the root of the least squared distance to a row of `a`. -/
def nearB {N M : ℕ} (a : Fin N → Fin 64 → EReal) (b : Fin M → Fin 64 → EReal) : EReal :=
  ∑ m : Fin M, root ((Finset.univ : Finset (Fin N)).fold min ⊤ fun n => dist2 a b n m)

/-- `nearB` for a set given as two halves: the least squared distance to a row of either half is the smaller of
    the two halves' least ones. -/
def nearB2 {N M : ℕ} (a₁ a₂ : Fin N → Fin 64 → EReal) (b : Fin M → Fin 64 → EReal) : EReal :=
  ∑ m : Fin M, root (min ((Finset.univ : Finset (Fin N)).fold min ⊤ fun n => dist2 a₁ b n m)
    ((Finset.univ : Finset (Fin N)).fold min ⊤ fun n => dist2 a₂ b n m))

/-- The other arrangement of `nearA`: the least of the roots. -/
def nearA' {N M : ℕ} (a : Fin N → Fin 64 → EReal) (b : Fin M → Fin 64 → EReal) : EReal :=
  ∑ n : Fin N, (Finset.univ : Finset (Fin M)).fold min ⊤ fun m => root (dist2 a b n m)

/-- The other arrangement of `nearB`: the least of the roots. -/
def nearB' {N M : ℕ} (a : Fin N → Fin 64 → EReal) (b : Fin M → Fin 64 → EReal) : EReal :=
  ∑ m : Fin M, (Finset.univ : Finset (Fin N)).fold min ⊤ fun n => root (dist2 a b n m)

/-- The first and the second 2048 rows of a set of 4096. -/
def top (a : Fin 4096 → Fin 64 → EReal) : Fin 2048 → Fin 64 → EReal := fun n => a ⟨n.val, by have := n.isLt; omega⟩
def bot (a : Fin 4096 → Fin 64 → EReal) : Fin 2048 → Fin 64 → EReal := fun n => a ⟨n.val + 2048, by have := n.isLt; omega⟩

/-- The loss as the accumulating arrangement computes it: the four batches' sums added up left to right, each total
    divided by the number of points, the two quotients added and divided by one constant. The constants are kept as
    the words the programs print. -/
def kerLoss (A B : Fin 4 → Fin 4096 → Fin 64 → EReal) : EReal :=
  Ideal.div
    (Ideal.div (((nearA (A 0) (B 0) + nearA (A 1) (B 1)) + nearA (A 2) (B 2)) + nearA (A 3) (B 3)) (Ideal.ofBits .f32 0x45800000#32)
      + Ideal.div (((nearB (A 0) (B 0) + nearB (A 1) (B 1)) + nearB (A 2) (B 2)) + nearB (A 3) (B 3)) (Ideal.ofBits .f32 0x45800000#32))
    (Ideal.ofBits .f32 0x424CCCCD#32)

/-- The loss as the averaging arrangement computes it: per batch the two means added, the mean of those over the
    batches, divided by the last constant. -/
def refLoss (A B : Fin 4 → Fin 4096 → Fin 64 → EReal) : EReal :=
  Ideal.div
    (Ideal.div
      (∑ b : Fin 4, (Ideal.div (nearA' (A b) (B b)) (Ideal.ofBits .f32 0x45800000#32)
        + Ideal.div (nearB' (A b) (B b)) (Ideal.ofBits .f32 0x45800000#32)))
      (Ideal.ofBits .f32 0x40800000#32))
    (Ideal.ofBits .f32 0x414CCCCD#32)

/-- The root of an extended real is monotone: it keeps ⊥ and ⊤, sends a negative real to ⊥, and on the
    non-negative reals is the real square root. -/
theorem sqrt_mono : Monotone Ideal.sqrt := by
  intro x y h
  induction x using EReal.rec with
  | bot => simp
  | top =>
    have hy : y = ⊤ := top_le_iff.mp h
    rw [hy]
  | coe r =>
    induction y using EReal.rec with
    | bot => exact absurd h (by simp)
    | top => simp
    | coe s =>
      have hrs : r ≤ s := by exact_mod_cast h
      rw [Ideal.sqrt_coe, Ideal.sqrt_coe]
      split_ifs
      · exact le_rfl
      · exact bot_le
      · exfalso; linarith
      · exact_mod_cast Real.sqrt_le_sqrt hrs

/-- Clamping at zero and then taking the root is monotone. -/
theorem root_mono : Monotone root := fun _ _ h => sqrt_mono (max_le_max h le_rfl)

theorem root_top : root ⊤ = ⊤ := by simp [root]

/-- The least of the roots is the root of the least. -/
theorem fold_root {ι : Type} (s : Finset ι) (f : ι → EReal) :
    (s.fold min ⊤ fun i => root (f i)) = root (s.fold min ⊤ f) := by
  have h := Finset.fold_hom (op := min) (op' := min) (s := s) (b := (⊤ : EReal)) (f := f) (m := root)
    (fun x y => root_mono.map_min)
  rw [root_top] at h
  exact h

/-- Clamping at zero and taking the root is monotone, so the least of the roots is the root of the least. -/
theorem nearA'_eq {N M : ℕ} (a : Fin N → Fin 64 → EReal) (b : Fin M → Fin 64 → EReal) : nearA' a b = nearA a b := by
  unfold nearA' nearA
  exact Finset.sum_congr rfl fun n _ => fold_root _ _

theorem nearB'_eq {N M : ℕ} (a : Fin N → Fin 64 → EReal) (b : Fin M → Fin 64 → EReal) : nearB' a b = nearB a b := by
  unfold nearB' nearB
  exact Finset.sum_congr rfl fun m _ => fold_root _ _

/-- The first half's rows are the rows below 2048, the second half's the rows from 2048 on. -/
theorem top_eq (a : Fin 4096 → Fin 64 → EReal) : top a = fun n : Fin 2048 => a (Fin.castAdd 2048 n) := rfl

theorem bot_eq (a : Fin 4096 → Fin 64 → EReal) : bot a = fun n : Fin 2048 => a (Fin.natAdd 2048 n) := by
  funext n
  unfold bot
  congr 1
  apply Fin.ext
  simp only [Fin.natAdd]
  omega

/-- A sum over 4096 rows is the sum over the first half plus the sum over the second. -/
theorem nearA_halves (a : Fin 4096 → Fin 64 → EReal) (b : Fin 4096 → Fin 64 → EReal) :
    nearA (top a) b + nearA (bot a) b = nearA a b := by
  rw [bot_eq, top_eq]
  unfold nearA
  exact (Fin.sum_univ_add (fun n : Fin (2048 + 2048) =>
    root ((Finset.univ : Finset (Fin 4096)).fold min ⊤ fun m => dist2 a b n m))).symm

/-- The least of a function of 4096 rows is the smaller of the least over the first half and over the second. -/
theorem fold_min_halves (f : Fin 4096 → EReal) :
    min ((Finset.univ : Finset (Fin 2048)).fold min ⊤ fun n => f (Fin.castAdd 2048 n))
      ((Finset.univ : Finset (Fin 2048)).fold min ⊤ fun n => f (Fin.natAdd 2048 n))
      = (Finset.univ : Finset (Fin 4096)).fold min ⊤ f := by
  apply eq_of_forall_le_iff
  intro c
  rw [le_min_iff, Finset.le_fold_min, Finset.le_fold_min, Finset.le_fold_min]
  constructor
  · rintro ⟨⟨_, h1⟩, ⟨_, h2⟩⟩
    refine ⟨le_top, fun n _ => ?_⟩
    exact Fin.addCases (m := 2048) (n := 2048) (motive := fun n => c ≤ f n)
      (fun i => h1 i (Finset.mem_univ _)) (fun i => h2 i (Finset.mem_univ _)) n
  · rintro ⟨_, h⟩
    exact ⟨⟨le_top, fun n _ => h _ (Finset.mem_univ _)⟩, ⟨le_top, fun n _ => h _ (Finset.mem_univ _)⟩⟩

/-- The least over 4096 rows is the smaller of the two halves' least ones. -/
theorem nearB2_halves (a : Fin 4096 → Fin 64 → EReal) (b : Fin 4096 → Fin 64 → EReal) :
    nearB2 (top a) (bot a) b = nearB a b := by
  rw [bot_eq, top_eq]
  unfold nearB2 nearB
  refine Finset.sum_congr rfl fun m _ => ?_
  exact congrArg root (fold_min_halves fun n => dist2 a b n m)

/-- The four constants: 4096, 4, and a positive real and its fourfold (the two words share a mantissa and their
    exponents differ by two). -/
theorem word_4096 : Ideal.ofBits .f32 0x45800000#32 = ((4096 : ℝ) : EReal) := by
  simp [Ideal.ofBits, Ideal.ieee, -EReal.coe_mul]; norm_num

theorem word_4 : Ideal.ofBits .f32 0x40800000#32 = ((4 : ℝ) : EReal) := by
  simp [Ideal.ofBits, Ideal.ieee, -EReal.coe_mul]; norm_num

theorem word_c : Ideal.ofBits .f32 0x414CCCCD#32 = ((13421773 / 1048576 : ℝ) : EReal) := by
  simp [Ideal.ofBits, Ideal.ieee, -EReal.coe_mul]; norm_num

theorem word_4c : Ideal.ofBits .f32 0x424CCCCD#32 = ((4 * (13421773 / 1048576) : ℝ) : EReal) := by
  simp [Ideal.ofBits, Ideal.ieee, -EReal.coe_mul]; norm_num

/-- Dividing by a positive real is multiplying by its reciprocal. -/
theorem div_pos_eq_mul (x : EReal) {y : ℝ} (hy : 0 < y) : Ideal.div x (y : EReal) = x * ((1 / y : ℝ) : EReal) :=
  Ideal.div_coe hy.ne' x

/-- Multiplying by a non-negative real distributes over every sum of extended reals, and the products of the
    real factors combine; the rest is reordering a sum of eight terms. -/
theorem loss_arith (a0 a1 a2 a3 b0 b1 b2 b3 : EReal) (k p q r : ℝ) (hk : 0 ≤ k) (hpqr : q * r = p) :
    ((((a0 + a1) + a2) + a3) * (k : EReal) + (((b0 + b1) + b2) + b3) * (k : EReal)) * (p : EReal)
      = ((((a0 * k + b0 * k) + (a1 * k + b1 * k)) + (a2 * k + b2 * k)) + (a3 * k + b3 * k)) * (q : EReal) * (r : EReal) := by
  have hk0 : (0 : EReal) ≤ (k : EReal) := by exact_mod_cast hk
  have hkt : (k : EReal) ≠ ⊤ := EReal.coe_ne_top k
  rw [mul_assoc, ← EReal.coe_mul, hpqr]
  congr 1
  simp only [EReal.right_distrib_of_nonneg_of_ne_top hk0 hkt]
  abel

/-- The two arrangements of the loss agree: every sum is of non-negative terms, over which multiplying by a positive
    real distributes, and the one constant is four times the other. -/
theorem kerLoss_eq_refLoss (A B : Fin 4 → Fin 4096 → Fin 64 → EReal) : kerLoss A B = refLoss A B := by
  unfold kerLoss refLoss
  simp only [nearA'_eq, nearB'_eq, word_4096, word_4, word_c, word_4c]
  rw [Fin.sum_univ_four]
  rw [div_pos_eq_mul _ (by norm_num : (0 : ℝ) < 4 * (13421773 / 1048576)),
    div_pos_eq_mul _ (by norm_num : (0 : ℝ) < 13421773 / 1048576),
    div_pos_eq_mul _ (by norm_num : (0 : ℝ) < 4)]
  simp only [div_pos_eq_mul _ (by norm_num : (0 : ℝ) < 4096)]
  exact loss_arith _ _ _ _ _ _ _ _ _ _ _ _ (by norm_num) (by norm_num)

end Chamfer

end
-- ==== Proof.RefValue.lean ====
/-
  The reference's run read back as the averaging arrangement of the loss: squared norms, one batched contraction,
  |a|² + |b|² − 2⟨a, b⟩ clamped at zero and rooted entry by entry of the full [4, 4096, 4096] table, the least root along
  each axis, the two means per batch added, the mean over the batches, one last quotient.
-/
import proofs.«178844_g68143951118336_cont_9to1c4b_323_21_alg».proof.Proof.Gen.ReferenceIdeal.Run
import proofs.«178844_g68143951118336_cont_9to1c4b_323_21_alg».proof.Proof.Gen.ReferenceIdeal.Read
import proofs.«178844_g68143951118336_cont_9to1c4b_323_21_alg».proof.Proof.Spec
import Idealize.ShloMosaic.PureOps.Ideal.Laws
import Idealize.ShloMosaic.Lib.ValueIdx
import Idealize.ShloMosaic.Lib.ValueIdxRank1
import Idealize.ShloMosaic.Lib.Pipeline.Value

noncomputable section

open scoped BigOperators

namespace Cert.ReferenceIdeal.RefValue

open Idealize.ShloMosaic Idealize.ShloMosaic.ValueIdx Idealize.SL.Sem Cert.ReferenceIdeal Cert.ReferenceIdeal.Gen

/-- A [4, 4096, 64] array as its batches' rows. -/
def batches (x : FVec Ideal S4x4096x64 .f32) : Fin 4 → Fin 4096 → Fin 64 → EReal := fun b n d => x (ix3 b n d)

/-- The word 0x7F800000 is +∞. -/
theorem top_word : Ideal.ofBits .f32 0x7F800000#32 = (⊤ : EReal) := by simp [Ideal.ofBits, Ideal.ieee]

/-- The word 0x40000000 is 2. -/
theorem two_word : Ideal.ofBits .f32 0x40000000#32 = (2 : EReal) := by
  simp [Ideal.ofBits, Ideal.ieee]
  rw [← EReal.coe_mul]
  norm_num
  rfl

/-! ## The composed index maps at coordinates -/

theorem idx_v1 (b : Fin 4) (n : Fin 4096) (k : Fin 64) : Read.idx_main_v1 (ix2 b n) k = ix3 b n k :=
  funext fun a => Fin.ext (by match a with | ⟨0, _⟩ => rfl | ⟨1, _⟩ => rfl | ⟨2, _⟩ => rfl)

theorem idx_v4 (b : Fin 4) (n : Fin 4096) (k : Fin 64) : Read.idx_main_v4 (ix2 b n) k = ix3 b n k :=
  funext fun a => Fin.ext (by match a with | ⟨0, _⟩ => rfl | ⟨1, _⟩ => rfl | ⟨2, _⟩ => rfl)

theorem idx_v2_v7 (b : Fin 4) (n m : Fin 4096) : Read.idx_main_v2 (Read.idx_main_v7 (ix3 b n m)) = ix2 b n :=
  funext fun a => Fin.ext (by match a with | ⟨0, _⟩ => rfl | ⟨1, _⟩ => rfl)

theorem idx_v5_v8 (b : Fin 4) (n m : Fin 4096) : Read.idx_main_v5 (Read.idx_main_v8 (ix3 b n m)) = ix2 b m :=
  funext fun a => Fin.ext (by match a with | ⟨0, _⟩ => rfl | ⟨1, _⟩ => rfl)

theorem lidx_v6 (b : Fin 4) (n m : Fin 4096) (k : Fin 64) : Read.lidx_main_v6 (ix3 b n m) k = ix3 b n k :=
  funext fun a => Fin.ext (by match a with | ⟨0, _⟩ => rfl | ⟨1, _⟩ => rfl | ⟨2, _⟩ => rfl)

theorem ridx_v6 (b : Fin 4) (n m : Fin 4096) (k : Fin 64) : Read.ridx_main_v6 (ix3 b n m) k = ix3 b m k :=
  funext fun a => Fin.ext (by match a with | ⟨0, _⟩ => rfl | ⟨1, _⟩ => rfl | ⟨2, _⟩ => rfl)

theorem idx_v18 (b : Fin 4) (k : Fin 4096) : Read.idx_main_v18 (ix1 b) k = ix2 b k :=
  funext fun a => Fin.ext (by match a with | ⟨0, _⟩ => rfl | ⟨1, _⟩ => rfl)

theorem idx_v21 (b : Fin 4) (k : Fin 4096) : Read.idx_main_v21 (ix1 b) k = ix2 b k :=
  funext fun a => Fin.ext (by match a with | ⟨0, _⟩ => rfl | ⟨1, _⟩ => rfl)

/-! ## The squared norms and the inner products -/

/-- The first array's row sums of squares. -/
theorem sq0 (x0 : FVec Ideal S4x4096x64 .f32) (b : Fin 4) (n : Fin 4096) :
    Read.val_main_v1 (F := Ideal) x0 (ix2 b n) = Chamfer.sq (batches x0 b) n := by
  rw [Read.val_main_v1_apply, Read.val_main_cst_apply, Ideal.ofBits_def, Ideal.ofBits_zero_f32, zero_add]
  refine Finset.sum_congr rfl fun k _ => ?_
  rw [Read.val_main_v0_apply, idx_v1]
  rfl

/-- The second array's row sums of squares. -/
theorem sq1 (x1 : FVec Ideal S4x4096x64 .f32) (b : Fin 4) (m : Fin 4096) :
    Read.val_main_v4 (F := Ideal) x1 (ix2 b m) = Chamfer.sq (batches x1 b) m := by
  rw [Read.val_main_v4_apply, Read.val_main_cst_0_apply, Ideal.ofBits_def, Ideal.ofBits_zero_f32, zero_add]
  refine Finset.sum_congr rfl fun k _ => ?_
  rw [Read.val_main_v3_apply, idx_v4]
  rfl

/-- The batched contraction's entry is the inner product of the two rows. -/
theorem inner (x0 x1 : FVec Ideal S4x4096x64 .f32) (b : Fin 4) (n m : Fin 4096) :
    Read.val_main_v6 (F := Ideal) x0 x1 (ix3 b n m) = Chamfer.dot (batches x0 b) (batches x1 b) n m := by
  rw [Read.val_main_v6_apply]
  refine Finset.sum_congr rfl fun k _ => ?_
  rw [lidx_v6, ridx_v6]
  rfl

/-! ## The table of roots -/

/-- An entry of the [4, 4096, 4096] table: the root of the clamped squared distance of the pair of rows. -/
theorem entry (x0 x1 : FVec Ideal S4x4096x64 .f32) (b : Fin 4) (n m : Fin 4096) :
    Read.val_main_v15 (F := Ideal) x0 x1 (ix3 b n m)
      = Chamfer.root (Chamfer.dist2 (batches x0 b) (batches x1 b) n m) := by
  rw [Read.val_main_v15_apply, Read.val_main_v14_apply, Read.val_main_v13_apply, Read.val_main_cst_2_apply,
    Read.val_main_v12_apply, Read.val_main_v9_apply, Read.val_main_v7_apply, Read.val_main_v2_apply,
    Read.val_main_v8_apply, Read.val_main_v5_apply, Read.val_main_v11_apply, Read.val_main_v10_apply,
    Read.val_main_cst_1_apply, idx_v2_v7, idx_v5_v8, sq0, sq1, inner]
  simp only [Ideal.hostUnary_sqrt_def, Ideal.maximumf_def, Ideal.subf_def, Ideal.addf_def, Ideal.mulf_def,
    Ideal.ofBits_def, Ideal.ofBits_zero_f32, two_word]
  rfl

/-! ## The two minimum reductions -/

/-- The minimum over the last axis, at (b, n): the fold of min from +∞ over m. -/
theorem min2 (y : FVec Ideal S4x4096x4096 .f32) (b : Fin 4) (n : Fin 4096) :
    Host.reduce (FloatOps.minimumf (F := Ideal) (φ := .f32)) y (Read.val_main_cst_3 (F := Ideal)) reducesTo_S4x4096x4096_S4x4096_d2 h_S_ (ix2 b n)
      = (Finset.univ : Finset (Fin 4096)).fold min ⊤ (fun m => y (ix3 b n m)) := by
  have h : S4x4096x4096.Reduces [2] S4x4096 := by decide
  rw [Host.reduce_eq_fold_single _ y _ reducesTo_S4x4096x4096_S4x4096_d2 h h_S_ (ix2 b n)]
  rw [Read.val_main_cst_3_apply, Ideal.ofBits_def, top_word]
  have e : (y ∘ h.lift (ix2 b n)) = fun m : Fin 4096 => y (ix3 b n m) :=
    funext fun m => congrArg y (funext fun a => Fin.ext (by match a with | ⟨0, _⟩ => rfl | ⟨1, _⟩ => rfl | ⟨2, _⟩ => rfl))
  rw [e]
  rfl

/-- The minimum over the middle axis, at (b, m): the fold of min from +∞ over n. -/
theorem min1 (y : FVec Ideal S4x4096x4096 .f32) (b : Fin 4) (m : Fin 4096) :
    Host.reduce (FloatOps.minimumf (F := Ideal) (φ := .f32)) y (Read.val_main_cst_4 (F := Ideal)) reducesTo_S4x4096x4096_S4x4096_d1 h_S_ (ix2 b m)
      = (Finset.univ : Finset (Fin 4096)).fold min ⊤ (fun n => y (ix3 b n m)) := by
  have h : S4x4096x4096.Reduces [1] S4x4096 := by decide
  rw [Host.reduce_eq_fold_single _ y _ reducesTo_S4x4096x4096_S4x4096_d1 h h_S_ (ix2 b m)]
  rw [Read.val_main_cst_4_apply, Ideal.ofBits_def, top_word]
  have e : (y ∘ h.lift (ix2 b m)) = fun n : Fin 4096 => y (ix3 b n m) :=
    funext fun n => congrArg y (funext fun a => Fin.ext (by match a with | ⟨0, _⟩ => rfl | ⟨1, _⟩ => rfl | ⟨2, _⟩ => rfl))
  rw [e]
  rfl

/-- Each row of the first set: its least root over the second set's rows. -/
theorem nearRow (x0 x1 : FVec Ideal S4x4096x64 .f32) (b : Fin 4) (n : Fin 4096) :
    Read.val_main_v16 (F := Ideal) x0 x1 (ix2 b n)
      = (Finset.univ : Finset (Fin 4096)).fold min ⊤ fun m => Chamfer.root (Chamfer.dist2 (batches x0 b) (batches x1 b) n m) := by
  unfold Read.val_main_v16
  rw [min2]
  exact congrArg (fun f => (Finset.univ : Finset (Fin 4096)).fold min ⊤ f) (funext fun m => entry x0 x1 b n m)

/-- Each row of the second set: its least root over the first set's rows. -/
theorem nearCol (x0 x1 : FVec Ideal S4x4096x64 .f32) (b : Fin 4) (m : Fin 4096) :
    Read.val_main_v17 (F := Ideal) x0 x1 (ix2 b m)
      = (Finset.univ : Finset (Fin 4096)).fold min ⊤ fun n => Chamfer.root (Chamfer.dist2 (batches x0 b) (batches x1 b) n m) := by
  unfold Read.val_main_v17
  rw [min1]
  exact congrArg (fun f => (Finset.univ : Finset (Fin 4096)).fold min ⊤ f) (funext fun n => entry x0 x1 b n m)

/-! ## The sums, the means and the last quotients -/

/-- The sum over the first set's rows of their least roots. -/
theorem sumA (x0 x1 : FVec Ideal S4x4096x64 .f32) (b : Fin 4) :
    Read.val_main_v18 (F := Ideal) x0 x1 (ix1 b) = Chamfer.nearA' (batches x0 b) (batches x1 b) := by
  rw [Read.val_main_v18_apply, Read.val_main_cst_5_apply, Ideal.ofBits_def, Ideal.ofBits_zero_f32, zero_add]
  refine Finset.sum_congr rfl fun k _ => ?_
  rw [idx_v18, nearRow]

/-- The sum over the second set's rows of their least roots. -/
theorem sumB (x0 x1 : FVec Ideal S4x4096x64 .f32) (b : Fin 4) :
    Read.val_main_v21 (F := Ideal) x0 x1 (ix1 b) = Chamfer.nearB' (batches x0 b) (batches x1 b) := by
  rw [Read.val_main_v21_apply, Read.val_main_cst_7_apply, Ideal.ofBits_def, Ideal.ofBits_zero_f32, zero_add]
  refine Finset.sum_congr rfl fun k _ => ?_
  rw [idx_v21, nearCol]

/-- One batch's two means added. -/
theorem perBatch (x0 x1 : FVec Ideal S4x4096x64 .f32) (b : Fin 4) :
    Read.val_main_v24 (F := Ideal) x0 x1 (ix1 b)
      = Ideal.div (Chamfer.nearA' (batches x0 b) (batches x1 b)) (Ideal.ofBits .f32 0x45800000#32)
        + Ideal.div (Chamfer.nearB' (batches x0 b) (batches x1 b)) (Ideal.ofBits .f32 0x45800000#32) := by
  rw [Read.val_main_v24_apply, Read.val_main_v20_apply, Read.val_main_v23_apply, Read.val_main_v19_apply,
    Read.val_main_v22_apply, Read.val_main_cst_6_apply, Read.val_main_cst_8_apply, sumA, sumB]
  rfl

/-- The whole result: the mean over the batches, divided by the last constant. -/
theorem loss (x0 x1 : FVec Ideal S4x4096x64 .f32) :
    Read.val_main_v27 (F := Ideal) x0 x1 = fun _ => Chamfer.refLoss (batches x0) (batches x1) := by
  funext i
  rw [Read.val_main_v27_apply, Read.val_main_v26_apply, Read.val_main_v25_apply, Read.val_main_cst_9_apply,
    Read.val_main_cst_10_apply, Read.val_main_cst_11_apply, Ideal.ofBits_def, Ideal.ofBits_zero_f32, zero_add,
    ← Equiv.sum_comp (idxEquiv1 (n := 4)).symm]
  simp only [Ideal.hostDivf_def, Ideal.ofBits_def]
  unfold Chamfer.refLoss
  refine congrArg (fun s => Ideal.div (Ideal.div s _) _) (Finset.sum_congr rfl fun b _ => ?_)
  exact perBatch x0 x1 b

/-- Every weakly fair execution of the reference terminates with its result at the averaging arrangement of the loss
    of the argument arrays, which end unchanged. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v27)
        = (fun _ => Chamfer.refLoss (batches (m ((c.tc : Thread nD τ).loc main_arg0))) (batches (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono
    (fun _ h c => ⟨(h c).1.trans ((Read.val_main_v27_eq _ _).trans (loss _ _)), (h c).2⟩)
    (Cert.ReferenceIdeal.Value.run (F := Ideal) m ρ)

end Cert.ReferenceIdeal.RefValue

end
-- ==== Proof.PointValue.lean ====
/-
  What one grid point's arithmetic is, at the ideal values: from the second set's block `b` and the two halves
  `xt`, `xb` of the first set's block, the pair of sums the body stores — entry 0 the sum over both halves' rows of
  the root of the least squared distance to a row of `b`, entry 1 the sum over `b`'s rows of the root of the
  least squared distance to a row of either half. The body reaches the squared distance by ONE contraction of
  68 terms over rows augmented with norms and ones, [x, |x|², 0, 1, 1] · [−2b, 1, 1, |b|², 0]; for real entries that
  is |x|² + |b|² − 2⟨x, b⟩.
-/
import proofs.«178844_g68143951118336_cont_9to1c4b_323_21_alg».proof.Proof.Gen.KernelIdeal.Skeleton
import proofs.«178844_g68143951118336_cont_9to1c4b_323_21_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.PointValue

open Idealize.ShloMosaic Idealize.ShloMosaic.ValueIdx Cert.KernelIdeal Cert.KernelIdeal.Gen

/-- A [1, R, 64] block as its rows. -/
def rows {R : ℕ} (x : (⟨3, ![1, R, 64]⟩ : Shape).Idx → EReal) : Fin R → Fin 64 → EReal := fun n d => x (ix3 0 n d)

/-- The first set's half with its norms and ones appended: columns 0..63 the coordinates, 64 the squared norm,
    65 the squared norm less itself, 66 and 67 one. -/
def augA (v16 : Vec Ideal S1x2048x64 .f32) : FVec Ideal S2048x68 .bf16 :=
  have v17 : FVec Ideal S2048x64 .f32 := shapeCast S2048x64 v16 shapeCasts_S1x2048x64_S2048x64
  have v18 : FVec Ideal S2048x64 .bf16 := truncf .bf16 v17 bitsLt_bf16_f32
  have v19 : FVec Ideal S2048x64 .f32 := v17
  have v20 : FVec Ideal S2048x64 .f32 := mulf v19 v19
  have v21 : FVec Ideal S2048 .f32 := multiReduction .add [1] S2048 v20 0x00000000#32 reduces_S2048x64_S2048 (.inl rfl) rfl
  have v22 : FVec Ideal S2048x1 .f32 := shapeCast S2048x1 v21 shapeCasts_S2048_S2048x1
  have v23 : FVec Ideal S2048x1 .bf16 := truncf .bf16 v22 bitsLt_bf16_f32
  have v24 : FVec Ideal S2048x1 .f32 := v22
  have v25 : FVec Ideal S2048x1 .f32 := subf v22 v24
  have v26 : FVec Ideal S2048x1 .bf16 := truncf .bf16 v25 bitsLt_bf16_f32
  have cst_8 : Ideal .bf16 := Scalar.ofBits .bf16 0x3F80#16
  have v27 : FVec Ideal S2048x2 .bf16 := broadcast S2048x2 cst_8
  concatenate S2048x68 1 [⟨S2048x64, v18⟩, ⟨S2048x1, v23⟩, ⟨S2048x1, v26⟩, ⟨S2048x2, v27⟩] concatenates_S2048x64_S2048x1_S2048x1_S2048x2_S2048x68_d1

/-- The table of the one contraction: the augmented half against the augmented second set, into zero. -/
def d2 (B : FVec Ideal S4096x68 .bf16) (x : Vec Ideal S1x2048x64 .f32) : FVec Ideal S2048x4096 .bf16 :=
  truncf .bf16 (matmul dot_S2048x68_S4096x68_S2048x4096_1_1_0_0_n_n none (augA x) B (constant S2048x4096 .f32 0x00000000#32)) bitsLt_bf16_f32

/-! ## Layout and reduction readings at coordinates -/

section Generic
variable {α : Type}

/-- An `[a]` vector cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A sum over the indices of a `[1, a, 1]` block is the sum over its middle coordinate. -/
theorem sum_idx_1a1 {M : Type*} [AddCommMonoid M] {a : ℕ} (f : (⟨3, ![1, a, 1]⟩ : Shape).Idx → M) :
    ∑ i, f i = ∑ n : Fin a, f (ix3 (0 : Fin 1) n (0 : Fin 1)) := by
  let e : (⟨3, ![1, a, 1]⟩ : Shape).Idx ≃ Fin a :=
    { toFun := fun i => i 1
      invFun := fun n => ix3 (0 : Fin 1) n (0 : Fin 1)
      left_inv := fun i => by
        funext c
        match c with
        | ⟨0, _⟩ => exact Fin.ext (by have h : (i 0).val < 1 := (i 0).isLt; show 0 = (i 0).val; omega)
        | ⟨1, _⟩ => rfl
        | ⟨2, _⟩ => exact Fin.ext (by have h : (i 2).val < 1 := (i 2).isLt; show 0 = (i 2).val; omega)
      right_inv := fun _ => rfl }
  rw [← Equiv.sum_comp e.symm f]; rfl

/-- The source index of a reduction along the rows' direction (axis 1) of a matrix. -/
theorem lift_row {a b : ℕ} (h : (⟨2, ![a, b]⟩ : Shape).Reduces [1] ⟨1, ![a]⟩) (n : Fin a) (k : Fin b) :
    h.lift (ix1 n) k = ix2 n k := by
  funext c; apply Fin.ext
  match c with
  | ⟨0, _⟩ => rfl
  | ⟨1, _⟩ => rfl

/-- The source index of a reduction down the columns (axis 0) of a matrix. -/
theorem lift_col {a b : ℕ} (h : (⟨2, ![a, b]⟩ : Shape).Reduces [0] ⟨1, ![b]⟩) (m : Fin b) (k : Fin a) :
    h.lift (ix1 m) k = ix2 k m := by
  funext c; apply Fin.ext
  match c with
  | ⟨0, _⟩ => rfl
  | ⟨1, _⟩ => rfl

end Generic

/-- The bf16 word 0x7F80 is +∞. -/
theorem ofBits_top_bf16 : Ideal.ofBits .bf16 0x7F80#16 = ⊤ := by simp [Ideal.ofBits, Ideal.ieee]
/-- The bf16 word 0x3F80 is 1. -/
theorem ofBits_one_bf16 : Ideal.ofBits .bf16 0x3F80#16 = 1 := by simp [Ideal.ofBits, Ideal.ieee, -EReal.coe_mul]; norm_num
/-- The f32 word 0xC0000000 is −2. -/
theorem ofBits_neg_two_f32 : Ideal.ofBits .f32 0xC0000000#32 = ((-2 : ℝ) : EReal) := by simp [Ideal.ofBits, Ideal.ieee, -EReal.coe_mul]; norm_num

/-- A lane sum of a matrix, read at a row. -/
theorem laneSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (n : Fin a) :
    multiReduction .add [1] ⟨1, ![a]⟩ src 0x00000000#32 h hφ hacc (ix1 n) = ∑ d : Fin b, src (ix2 n d) := by
  refine (Ideal.multiReduction_add_single src _ h hφ hacc (ix1 n)).trans ?_
  exact Finset.sum_congr rfl fun d _ => congrArg src (lift_row h n d)

/-- A row's minimum, from +∞. -/
theorem rowMin_apply {a b : ℕ} (src : FVec Ideal ⟨2, ![a, b]⟩ .bf16) (h : (⟨2, ![a, b]⟩ : Shape).Reduces [1] ⟨1, ![a]⟩)
    (hφ : FKind.Formats .bf16) (hacc : (0x7F80#16 : BitVec 16) = FKind.minimumf.neutral .bf16 hφ) (n : Fin a) :
    multiReduction .minimumf [1] ⟨1, ![a]⟩ src 0x7F80#16 h hφ hacc (ix1 n)
      = (Finset.univ : Finset (Fin b)).fold min ⊤ fun m => src (ix2 n m) := by
  rw [multiReduction_minimumf_eq_fold]
  refine (h.fold_filter_drop_single _ _ src _).trans ?_
  show (Finset.univ : Finset (Fin b)).fold min (Ideal.ofBits .bf16 0x7F80#16) (src ∘ h.lift (ix1 n)) = _
  rw [ofBits_top_bf16]
  exact congrArg (fun f => Finset.fold min ⊤ f Finset.univ) (funext fun m => congrArg src (lift_row h n m))

/-- A column's minimum, from +∞. -/
theorem colMin_apply {a b : ℕ} (src : FVec Ideal ⟨2, ![a, b]⟩ .bf16) (h : (⟨2, ![a, b]⟩ : Shape).Reduces [0] ⟨1, ![b]⟩)
    (hφ : FKind.Formats .bf16) (hacc : (0x7F80#16 : BitVec 16) = FKind.minimumf.neutral .bf16 hφ) (m : Fin b) :
    multiReduction .minimumf [0] ⟨1, ![b]⟩ src 0x7F80#16 h hφ hacc (ix1 m)
      = (Finset.univ : Finset (Fin a)).fold min ⊤ fun n => src (ix2 n m) := by
  rw [multiReduction_minimumf_eq_fold]
  refine (h.fold_filter_drop_single _ _ src _).trans ?_
  show (Finset.univ : Finset (Fin a)).fold min (Ideal.ofBits .bf16 0x7F80#16) (src ∘ h.lift (ix1 m)) = _
  rw [ofBits_top_bf16]
  exact congrArg (fun f => Finset.fold min ⊤ f Finset.univ) (funext fun n => congrArg src (lift_col h m n))

/-! ## The contraction's 68 terms -/

/-- A sum of 68 terms as its first 64 and the last four. -/
theorem sum_fin68 {M : Type*} [AddCommMonoid M] (f : Fin 68 → M) :
    ∑ k, f k = (∑ d : Fin 64, f ⟨d.val, by have := d.isLt; omega⟩) + (f 64 + f 65 + f 66 + f 67) := by
  rw [show (∑ k, f k) = ∑ k : Fin (64 + 4), f k from rfl, Fin.sum_univ_add, Fin.sum_univ_four]
  rfl

/-- The inclusion of the reals carries finite sums to finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- For real rows the 68 terms add up to |a|² + |c|² − 2⟨a, c⟩. -/
theorem dist_real (a c : Fin 64 → ℝ) :
    (∑ d, (a d : EReal) * (((-2 : ℝ) : EReal) * (c d : EReal)))
      + ((∑ d, (a d : EReal) * (a d : EReal)) * 1
        + ((∑ d, (a d : EReal) * (a d : EReal)) - (∑ d, (a d : EReal) * (a d : EReal))) * 1
        + 1 * (∑ d, (c d : EReal) * (c d : EReal))
        + 1 * ((∑ d, (c d : EReal) * (c d : EReal)) - (∑ d, (c d : EReal) * (c d : EReal))))
      = ((∑ d, (a d : EReal) * (a d : EReal)) + (∑ d, (c d : EReal) * (c d : EReal)))
        - (2 : EReal) * ∑ d, (a d : EReal) * (c d : EReal) := by
  have hX : (∑ d, (a d : EReal) * (((-2 : ℝ) : EReal) * (c d : EReal))) = ((∑ d, a d * (-2 * c d) : ℝ) : EReal) := by
    rw [coe_sum]; simp only [EReal.coe_mul]
  have hA : (∑ d, (a d : EReal) * (a d : EReal)) = ((∑ d, a d * a d : ℝ) : EReal) := by
    rw [coe_sum]; simp only [EReal.coe_mul]
  have hC : (∑ d, (c d : EReal) * (c d : EReal)) = ((∑ d, c d * c d : ℝ) : EReal) := by
    rw [coe_sum]; simp only [EReal.coe_mul]
  have hD : (∑ d, (a d : EReal) * (c d : EReal)) = ((∑ d, a d * c d : ℝ) : EReal) := by
    rw [coe_sum]; simp only [EReal.coe_mul]
  have h2 : (2 : EReal) = ((2 : ℝ) : EReal) := rfl
  rw [hX, hA, hC, hD, h2, ← EReal.coe_one]
  simp only [← EReal.coe_mul, ← EReal.coe_sub, ← EReal.coe_add]
  refine congrArg _ ?_
  have hXr : (∑ d, a d * (-2 * c d)) = -2 * ∑ d, a d * c d := by
    rw [Finset.mul_sum]; exact Finset.sum_congr rfl fun d _ => by ring
  rw [hXr]; ring

/-! ## The two augmented matrices at their entries -/

section Concat
variable {α : Type}

/-- A concatenation of matrices side by side, read at `(n, c)`: the piece whose columns hold `c`, at `(n, c − pre)`. -/
theorem concat_cols_apply {R C : ℕ} (xs : List ((s : Shape) × (s.Idx → α)))
    (h : Shape.Concatenates (xs.map (·.1)) ⟨2, ![R, C]⟩ 1) (n : Fin R) (c : Fin C)
    (k : ℕ) (hk : k < xs.length) (w : ℕ) (x₁ : (⟨2, ![R, w]⟩ : Shape).Idx → α) (hxk : xs[k] = ⟨⟨2, ![R, w]⟩, x₁⟩)
    (pre : ℕ)
    (hpre : (((xs.take k).map (·.1)).map fun s => if h : s.rank = (⟨2, ![R, C]⟩ : Shape).rank then s.size ((1 : Fin 2).cast h.symm) else 0).sum = pre)
    (e : Fin w) (ha : pre + e.val = c.val) :
    concatenate ⟨2, ![R, C]⟩ 1 xs h (ix2 n c) = x₁ (ix2 n e) :=
  concatenate_apply_piece 1 xs h (ix2 n c) k hk _ x₁ hxk rfl pre hpre (ix2 n e)
    (fun b hb => by
      match b with
      | ⟨0, _⟩ => rfl
      | ⟨1, _⟩ => exact absurd rfl hb)
    ha

end Concat

/-- The squared-norm column of a block: the lane sum of the squares, kept as a column. -/
theorem normCol_apply {R : ℕ} (x : FVec Ideal ⟨3, ![1, R, 64]⟩ .f32)
    (h1 : (⟨3, ![1, R, 64]⟩ : Shape).ShapeCasts ⟨2, ![R, 64]⟩) (h2 : (⟨2, ![R, 64]⟩ : Shape).Reduces [1] ⟨1, ![R]⟩)
    (hφ : FKind.Formats .f32) (hacc : (0x00000000#32 : BitVec 32) = FKind.add.neutral .f32 hφ)
    (h3 : (⟨1, ![R]⟩ : Shape).ShapeCasts ⟨2, ![R, 1]⟩) (n : Fin R) (u : Fin 1) :
    shapeCast ⟨2, ![R, 1]⟩ (multiReduction .add [1] ⟨1, ![R]⟩
        (mulf (shapeCast ⟨2, ![R, 64]⟩ x h1) (shapeCast ⟨2, ![R, 64]⟩ x h1)) 0x00000000#32 h2 hφ hacc) h3 (ix2 n u)
      = Chamfer.sq (rows x) n := by
  rw [shapeCast_a_a1_apply, laneSum_apply]
  refine Finset.sum_congr rfl fun d _ => ?_
  rw [mulf_apply, shapeCast_1ab_ab_apply]
  rfl

/-- The augmented half at its entries: the coordinates, the squared norm, the squared norm less itself, one, one. -/
theorem augA_lo (x : Vec Ideal S1x2048x64 .f32) (n : Fin 2048) (d : Fin 64) :
    augA x (ix2 n ⟨d.val, by have := d.isLt; omega⟩) = rows x n d := by
  unfold augA
  refine (concat_cols_apply _ _ n _ 0 (by simp) 64 _ rfl 0 rfl d (by simp)).trans ?_
  rw [truncf_apply, shapeCast_1ab_ab_apply]
  rfl

theorem augA_64 (x : Vec Ideal S1x2048x64 .f32) (n : Fin 2048) :
    augA x (ix2 n 64) = Chamfer.sq (rows x) n := by
  unfold augA
  refine (concat_cols_apply _ _ n _ 1 (by simp) 1 _ rfl 64 rfl 0 (by decide)).trans ?_
  rw [truncf_apply]
  exact normCol_apply x _ _ _ _ _ n 0

theorem augA_65 (x : Vec Ideal S1x2048x64 .f32) (n : Fin 2048) :
    augA x (ix2 n 65) = Chamfer.sq (rows x) n - Chamfer.sq (rows x) n := by
  unfold augA
  refine (concat_cols_apply _ _ n _ 2 (by simp) 1 _ rfl 65 rfl 0 (by decide)).trans ?_
  rw [truncf_apply, subf_apply]
  exact congrArg (fun t => t - t) (normCol_apply x _ _ _ _ _ n 0)

theorem augA_66 (x : Vec Ideal S1x2048x64 .f32) (n : Fin 2048) : augA x (ix2 n 66) = 1 := by
  unfold augA
  refine (concat_cols_apply _ _ n _ 3 (by simp) 2 _ rfl 66 rfl 0 (by decide)).trans ?_
  exact ofBits_one_bf16

theorem augA_67 (x : Vec Ideal S1x2048x64 .f32) (n : Fin 2048) : augA x (ix2 n 67) = 1 := by
  unfold augA
  refine (concat_cols_apply _ _ n _ 3 (by simp) 2 _ rfl 66 rfl 1 (by decide)).trans ?_
  exact ofBits_one_bf16

/-- The augmented second set at its entries: −2 times the coordinates, one, one, the squared norm, the squared norm less itself. -/
theorem augB_lo (b : Vec Ideal S1x4096x64 .f32) (m : Fin 4096) (d : Fin 64) :
    k0_pay2 (F := Ideal) b (ix2 m ⟨d.val, by have := d.isLt; omega⟩) = ((-2 : ℝ) : EReal) * rows b m d := by
  unfold k0_pay2
  refine (concat_cols_apply _ _ m _ 0 (by simp) 64 _ rfl 0 rfl d (by simp)).trans ?_
  rw [truncf_apply, mulf_apply, broadcast_apply, shapeCast_1ab_ab_apply]
  exact congrArg (· * rows b m d) ofBits_neg_two_f32

theorem augB_64 (b : Vec Ideal S1x4096x64 .f32) (m : Fin 4096) : k0_pay2 (F := Ideal) b (ix2 m 64) = 1 := by
  unfold k0_pay2
  refine (concat_cols_apply _ _ m _ 1 (by simp) 2 _ rfl 64 rfl 0 (by decide)).trans ?_
  exact ofBits_one_bf16

theorem augB_65 (b : Vec Ideal S1x4096x64 .f32) (m : Fin 4096) : k0_pay2 (F := Ideal) b (ix2 m 65) = 1 := by
  unfold k0_pay2
  refine (concat_cols_apply _ _ m _ 1 (by simp) 2 _ rfl 64 rfl 1 (by decide)).trans ?_
  exact ofBits_one_bf16

theorem augB_66 (b : Vec Ideal S1x4096x64 .f32) (m : Fin 4096) :
    k0_pay2 (F := Ideal) b (ix2 m 66) = Chamfer.sq (rows b) m := by
  unfold k0_pay2
  refine (concat_cols_apply _ _ m _ 2 (by simp) 1 _ rfl 66 rfl 0 (by decide)).trans ?_
  rw [truncf_apply]
  exact normCol_apply b _ _ _ _ _ m 0

theorem augB_67 (b : Vec Ideal S1x4096x64 .f32) (m : Fin 4096) :
    k0_pay2 (F := Ideal) b (ix2 m 67) = Chamfer.sq (rows b) m - Chamfer.sq (rows b) m := by
  unfold k0_pay2
  refine (concat_cols_apply _ _ m _ 3 (by simp) 1 _ rfl 67 rfl 0 (by decide)).trans ?_
  rw [truncf_apply, subf_apply]
  exact congrArg (fun t => t - t) (normCol_apply b _ _ _ _ _ m 0)

/-! ## The contraction read at an entry -/

/-- The left operand is read at the result's row on its axis 0 … -/
theorem lhs_ax0 (i : S2048x4096.Idx) (q : dot_S2048x68_S4096x68_S2048x4096_1_1_0_0_n_n.contr.Idx) :
    (dot_S2048x68_S4096x68_S2048x4096_1_1_0_0_n_n.lhsIdx i q 0).val = (i 0).val := by
  unfold DotDims.lhsIdx
  rw [dif_neg (show ¬(0 : Fin S2048x68.rank) ∈ dot_S2048x68_S4096x68_S2048x4096_1_1_0_0_n_n.lhsBatch by decide),
    dif_pos (show (0 : Fin S2048x68.rank) ∈ dot_S2048x68_S4096x68_S2048x4096_1_1_0_0_n_n.lhsNonContracting by decide)]
  rfl
/-- … and at the contraction coordinate on its axis 1. -/
theorem lhs_ax1 (i : S2048x4096.Idx) (q : dot_S2048x68_S4096x68_S2048x4096_1_1_0_0_n_n.contr.Idx) :
    (dot_S2048x68_S4096x68_S2048x4096_1_1_0_0_n_n.lhsIdx i q 1).val = (q ⟨0, by decide⟩).val :=
  dot_S2048x68_S4096x68_S2048x4096_1_1_0_0_n_n.lhsIdx_val_of_single rfl i q
/-- The right operand is read at the result's column on its axis 0 … -/
theorem rhs_ax0 (i : S2048x4096.Idx) (q : dot_S2048x68_S4096x68_S2048x4096_1_1_0_0_n_n.contr.Idx) :
    (dot_S2048x68_S4096x68_S2048x4096_1_1_0_0_n_n.rhsIdx i q 0).val = (i 1).val := by
  unfold DotDims.rhsIdx
  rw [dif_neg (show ¬(0 : Fin S4096x68.rank) ∈ dot_S2048x68_S4096x68_S2048x4096_1_1_0_0_n_n.rhsBatch by decide),
    dif_pos (show (0 : Fin S4096x68.rank) ∈ dot_S2048x68_S4096x68_S2048x4096_1_1_0_0_n_n.rhsNonContracting by decide)]
  rfl
/-- … and at the contraction coordinate on its axis 1. -/
theorem rhs_ax1 (i : S2048x4096.Idx) (q : dot_S2048x68_S4096x68_S2048x4096_1_1_0_0_n_n.contr.Idx) :
    (dot_S2048x68_S4096x68_S2048x4096_1_1_0_0_n_n.rhsIdx i q 1).val = (q ⟨0, by decide⟩).val :=
  dot_S2048x68_S4096x68_S2048x4096_1_1_0_0_n_n.rhsIdx_val_of_single rfl i q

/-- Entry (n, m) of the table: the 68 products of row n of the augmented half with row m of the augmented set. -/
theorem d2_apply (B : FVec Ideal S4096x68 .bf16) (x : Vec Ideal S1x2048x64 .f32) (n : Fin 2048) (m : Fin 4096) :
    d2 B x (ix2 n m) = ∑ k : Fin 68, augA x (ix2 n k) * B (ix2 m k) := by
  unfold d2
  rw [truncf_apply]
  simp only [matmul]
  rw [Ideal.matmul_constant_zero_apply, ← Equiv.sum_comp (contrEquiv1 dot_S2048x68_S4096x68_S2048x4096_1_1_0_0_n_n 68 rfl rfl).symm]
  refine Finset.sum_congr rfl fun k _ => ?_
  have hk := contrEquiv1_symm_val dot_S2048x68_S4096x68_S2048x4096_1_1_0_0_n_n 68 rfl rfl k
  have el : dot_S2048x68_S4096x68_S2048x4096_1_1_0_0_n_n.lhsIdx (ix2 n m) ((contrEquiv1 dot_S2048x68_S4096x68_S2048x4096_1_1_0_0_n_n 68 rfl rfl).symm k) = ix2 n k := funext fun a => Fin.ext (by
    match a with
    | ⟨0, _⟩ => exact lhs_ax0 _ _
    | ⟨1, _⟩ => exact (lhs_ax1 _ _).trans hk)
  have er : dot_S2048x68_S4096x68_S2048x4096_1_1_0_0_n_n.rhsIdx (ix2 n m) ((contrEquiv1 dot_S2048x68_S4096x68_S2048x4096_1_1_0_0_n_n 68 rfl rfl).symm k) = ix2 m k := funext fun a => Fin.ext (by
    match a with
    | ⟨0, _⟩ => exact rhs_ax0 _ _
    | ⟨1, _⟩ => exact (rhs_ax1 _ _).trans hk)
  rw [el, er]

/-- For real entries, entry (n, m) of the table is the squared distance of row n of the half from row m of the set. -/
theorem d2_dist (b : Vec Ideal S1x4096x64 .f32) (x : Vec Ideal S1x2048x64 .f32)
    (hx : ∀ i, ∃ r : ℝ, x i = (r : EReal)) (hb : ∀ i, ∃ r : ℝ, b i = (r : EReal)) (n : Fin 2048) (m : Fin 4096) :
    d2 (k0_pay2 b) x (ix2 n m) = Chamfer.dist2 (rows x) (rows b) n m := by
  choose xr hxr using hx
  choose br hbr using hb
  rw [d2_apply, sum_fin68]
  simp only [augA_lo, augA_64, augA_65, augA_66, augA_67, augB_lo, augB_64, augB_65, augB_66, augB_67]
  have ha : ∀ d, rows x n d = ((xr (ix3 0 n d) : ℝ) : EReal) := fun d => hxr _
  have hc : ∀ d, rows b m d = ((br (ix3 0 m d) : ℝ) : EReal) := fun d => hbr _
  unfold Chamfer.dist2 Chamfer.sq Chamfer.dot
  simp only [ha, hc]
  exact dist_real (fun d => xr (ix3 0 n d)) (fun d => br (ix3 0 m d))

/-! ## Nearest distances: a table's row minima and column minima, rooted and summed -/

/-- The sum over a table's rows of the root of each row's least entry. -/
def rowPart (D : FVec Ideal S2048x4096 .bf16) : FVec Ideal S1x1 .f32 :=
  have v31 : FVec Ideal S2048 .bf16 := multiReduction .minimumf [1] S2048 D 0x7F80#16 reduces_S2048x4096_S2048 (.inr rfl) rfl
  have v32 : FVec Ideal S2048x1 .bf16 := shapeCast S2048x1 v31 shapeCasts_S2048_S2048x1
  have v33 : FVec Ideal S2048x1 .f32 := extf .f32 v32 bitsLt_bf16_f32
  have cst_11 : Ideal .f32 := Scalar.ofBits .f32 0x00000000#32
  have v34 : FVec Ideal S2048x1 .f32 := broadcast S2048x1 cst_11
  have v35 : FVec Ideal S2048x1 .f32 := maximumf v33 v34
  have v36 : FVec Ideal S2048x1 .f32 := sqrt v35
  have v37 : FVec Ideal S1x2048x1 .f32 := shapeCast S1x2048x1 v36 shapeCasts_S2048x1_S1x2048x1
  have v38 : FVec Ideal S1 .f32 := multiReduction .add [1, 2] S1 v37 0x00000000#32 reduces_S1x2048x1_S1 (.inl rfl) rfl
  have v39 : FVec Ideal S1x1x1 .f32 := shapeCast S1x1x1 v38 shapeCasts_S1_S1x1x1
  have v40 : Ideal .f32 := extractAt ![0, 0, 0] v39 inpos_S1x1x1_p0_0_0
  broadcast S1x1 v40

/-- A table's column minima. -/
def colMin (D : FVec Ideal S2048x4096 .bf16) : FVec Ideal S4096 .bf16 :=
  multiReduction .minimumf [0] S4096 D 0x7F80#16 reduces_S2048x4096_S4096 (.inr rfl) rfl

/-- The sum over the columns of the root of the smaller of two column minima. -/
def colPart (c1 c2 : FVec Ideal S4096 .bf16) : FVec Ideal S1x1 .f32 :=
  have v71 : FVec Ideal S4096 .bf16 := minimumf c1 c2
  have v72 : FVec Ideal S4096 .f32 := extf .f32 v71 bitsLt_bf16_f32
  have cst_23 : Ideal .f32 := Scalar.ofBits .f32 0x00000000#32
  have v73 : FVec Ideal S4096 .f32 := broadcast S4096 cst_23
  have v74 : FVec Ideal S4096 .f32 := maximumf v72 v73
  have v75 : FVec Ideal S4096 .f32 := sqrt v74
  have v76 : FVec Ideal S1x4096 .f32 := shapeCast S1x4096 v75 shapeCasts_S4096_S1x4096
  have v77 : FVec Ideal S1 .f32 := multiReduction .add [1] S1 v76 0x00000000#32 reduces_S1x4096_S1 (.inl rfl) rfl
  have v78 : FVec Ideal S1x1 .f32 := shapeCast S1x1 v77 shapeCasts_S1_S1x1
  have v79 : Ideal .f32 := extractAt ![0, 0] v78 inpos_S1x1_p0_0
  broadcast S1x1 v79

/-- A square root at an index is the root of the element. -/
theorem sqrt_apply {s : Shape} {φ : FTy} (a : FVec Ideal s φ) (i : s.Idx) : sqrt a i = Ideal.sqrt (a i) := rfl

/-- The body's payloads are these functions of the table. -/
theorem pay4_eq (b : Vec Ideal S1x4096x64 .f32) (x : Vec Ideal S1x2048x64 .f32) :
    k0_pay4 (F := Ideal) b x = rowPart (d2 (k0_pay2 b) x) := rfl
theorem pay5_eq (b : Vec Ideal S1x4096x64 .f32) (x : Vec Ideal S1x2048x64 .f32) :
    k0_pay5 (F := Ideal) b x = colMin (d2 (k0_pay2 b) x) := rfl
theorem pay6_eq (B : FVec Ideal S4096x68 .bf16) (v41 : FVec Ideal S1x1 .f32) (v42 : FVec Ideal S4096 .bf16) (x : Vec Ideal S1x2048x64 .f32) :
    k0_pay6 (F := Ideal) B v41 v42 x
      = concatenate S1x2 1 [⟨S1x1, addf v41 (rowPart (d2 B x))⟩, ⟨S1x1, colPart v42 (colMin (d2 B x))⟩] concatenates_S1x1_S1x1_S1x2_d1 := rfl

/-- The row part at its one entry. -/
theorem rowPart_apply (D : FVec Ideal S2048x4096 .bf16) :
    rowPart D (ix2 0 0) = ∑ n : Fin 2048, Chamfer.root ((Finset.univ : Finset (Fin 4096)).fold min ⊤ fun m => D (ix2 n m)) := by
  unfold rowPart
  rw [broadcast_apply]
  unfold extractAt
  refine (shapeCast_apply _ _ _ (ix1 (0 : Fin 1)) (by rw [Shape.rowMajor_val_three, Shape.rowMajor_val_one]; rfl)).trans ?_
  refine (Ideal.multiReduction_add_total _ _ _ (fun b => by match b with | ⟨0, _⟩ => rfl) _ _ _).trans ?_
  rw [sum_idx_1a1]
  refine Finset.sum_congr rfl fun n _ => ?_
  rw [shapeCast_ab_1ab_apply, sqrt_apply, maximumf_apply, extf_apply, broadcast_apply, shapeCast_a_a1_apply,
    Ideal.ofBits_def, Ideal.ofBits_zero_f32]
  exact congrArg (fun t => Ideal.sqrt (max t 0)) (rowMin_apply D _ _ _ n)

/-- A column minimum at a column. -/
theorem colMin_at (D : FVec Ideal S2048x4096 .bf16) (m : Fin 4096) :
    colMin D (ix1 m) = (Finset.univ : Finset (Fin 2048)).fold min ⊤ fun n => D (ix2 n m) :=
  colMin_apply D _ _ _ m

/-- The column part at its one entry. -/
theorem colPart_apply (c1 c2 : FVec Ideal S4096 .bf16) :
    colPart c1 c2 (ix2 0 0) = ∑ m : Fin 4096, Chamfer.root (min (c1 (ix1 m)) (c2 (ix1 m))) := by
  unfold colPart
  rw [broadcast_apply]
  unfold extractAt
  refine (shapeCast_apply _ _ _ (ix1 (0 : Fin 1)) (by rw [Shape.rowMajor_val_two, Shape.rowMajor_val_one]; rfl)).trans ?_
  refine (laneSum_apply _ _ _ _ (0 : Fin 1)).trans ?_
  refine Finset.sum_congr rfl fun m _ => ?_
  rw [shapeCast_a_1a_apply, sqrt_apply, maximumf_apply, extf_apply, broadcast_apply, minimumf_apply,
    Ideal.ofBits_def, Ideal.ofBits_zero_f32]
  rfl

theorem pointSums_fst (xt xb : Vec Ideal S1x2048x64 .f32) (b : Vec Ideal S1x4096x64 .f32)
    (hxt : ∀ i, ∃ r : ℝ, xt i = (r : EReal)) (hxb : ∀ i, ∃ r : ℝ, xb i = (r : EReal)) (hb : ∀ i, ∃ r : ℝ, b i = (r : EReal)) :
    k0_pay6 (F := Ideal) (k0_pay2 b) (k0_pay4 b xt) (k0_pay5 b xt) xb (ix2 0 0)
      = Chamfer.nearA (rows xt) (rows b) + Chamfer.nearA (rows xb) (rows b) := by
  rw [pay6_eq]
  refine (concat_cols_apply _ _ (0 : Fin 1) (0 : Fin 2) 0 (by simp) 1 _ rfl 0 rfl (0 : Fin 1) (by decide)).trans ?_
  rw [addf_apply, pay4_eq, rowPart_apply, rowPart_apply]
  unfold Chamfer.nearA
  simp only [d2_dist b xt hxt hb, d2_dist b xb hxb hb]

theorem pointSums_snd (xt xb : Vec Ideal S1x2048x64 .f32) (b : Vec Ideal S1x4096x64 .f32)
    (hxt : ∀ i, ∃ r : ℝ, xt i = (r : EReal)) (hxb : ∀ i, ∃ r : ℝ, xb i = (r : EReal)) (hb : ∀ i, ∃ r : ℝ, b i = (r : EReal)) :
    k0_pay6 (F := Ideal) (k0_pay2 b) (k0_pay4 b xt) (k0_pay5 b xt) xb (ix2 0 1)
      = Chamfer.nearB2 (rows xt) (rows xb) (rows b) := by
  rw [pay6_eq]
  refine (concat_cols_apply _ _ (0 : Fin 1) (1 : Fin 2) 1 (by simp) 1 _ rfl 1 rfl (0 : Fin 1) (by decide)).trans ?_
  rw [colPart_apply, pay5_eq]
  unfold Chamfer.nearB2
  simp only [colMin_at, d2_dist b xt hxt hb, d2_dist b xb hxb hb]

end Cert.KernelIdeal.PointValue

end
-- ==== Proof.Bridge.lean ====
/-
  At the ideal values, for real entries, the accumulating program's result is the loss in its own arrangement: the
  output array holds the four batches' pairs added in order; a pair's first entry is the first set's nearest-distance
  sum (its two halves' sums added), its second entry the second set's (the column minimum taken over the two halves);
  the host lines divide each total by 4096, add, and divide by the last constant.
-/
import proofs.«178844_g68143951118336_cont_9to1c4b_323_21_alg».proof.Proof.RunKi
import proofs.«178844_g68143951118336_cont_9to1c4b_323_21_alg».proof.Proof.PointValue
import proofs.«178844_g68143951118336_cont_9to1c4b_323_21_alg».proof.Proof.Spec
import Idealize.ShloMosaic.Lib.ValueIdx
import Idealize.ShloMosaic.Lib.ValueLayout
import Idealize.ShloMosaic.Lib.Pipeline.Value

noncomputable section

open scoped BigOperators

namespace Cert.KernelIdeal.Bridge

open Idealize.ShloMosaic Idealize.ShloMosaic.TcCoe Idealize.ShloMosaic.ValueIdx Idealize.SL.Sem Cert.KernelIdeal Cert.KernelIdeal.Gen Cert.KernelIdeal.Acc

/-- A [4, 4096, 64] array as its batches' rows. -/
def batches (x : FVec Ideal S4x4096x64 .f32) : Fin 4 → Fin 4096 → Fin 64 → EReal := fun b n d => x (ix3 b n d)

/-- One entry of the [1, 1, 2] array cut out as a [1, 1, 1] block and recast to a scalar: that entry. -/
theorem sliceCast_apply (x : Vec Ideal S1x1x2 .f32) (e : Fin 2) (off : Fin 3 → Nat) (hoff : off = ![0, 0, e.val])
    (hs : S1x1x2.Slices off S1x1x1) (i : S_.Idx) :
    shapeCast S_ (extractStridedSlice S1x1x1 off x hs) shapeCasts_S1x1x1_S_ i = x (ix3 0 0 e) := by
  subst hoff
  have hk : (S1x1x1.rowMajor (ix3 0 0 0)).val = (S_.rowMajor i).val := by
    rw [Shape.rowMajor_val_three]
    show _ = (Shape.rowMajorPi _ i).val
    rw [Shape.rowMajorPi_zero]
    rfl
  rw [shapeCast_apply _ _ i (ix3 0 0 0) hk]
  exact extractStridedSlice_apply _ x hs (ix3 0 0 0) (ix3 0 0 e)
    (fun a => match a with | ⟨0, _⟩ => rfl | ⟨1, _⟩ => rfl | ⟨2, _⟩ => rfl)

/-- The host lines at the one index: each entry of the pair over the first constant, the two quotients added, over the last constant. -/
theorem hostTail_apply (x : Vec Ideal S1x1x2 .f32) (i : S_.Idx) :
    hostTail x i = Ideal.div (Ideal.div (x (ix3 0 0 0)) (Ideal.ofBits .f32 0x45800000#32)
      + Ideal.div (x (ix3 0 0 1)) (Ideal.ofBits .f32 0x45800000#32)) (Ideal.ofBits .f32 0x424CCCCD#32) := by
  have h0 := sliceCast_apply x 0 ![0, 0, 0] rfl slices_S1x1x2_S1x1x1_0_0_0 i
  have h1 := sliceCast_apply x 1 ![0, 0, 1] rfl slices_S1x1x2_S1x1x1_0_0_1 i
  rw [← h0, ← h1]
  rfl

/-- The row-major position of entry e of a [1, 2] pair is e … -/
theorem rm_S1x2 (e : Fin 2) : (S1x2.rowMajor (ix2 0 e)).val = e.val := by
  rw [Shape.rowMajor_val_two]; show 0 * _ + e.val = e.val; omega

/-- … and so is the position of entry e of a [1, 1, 2] block. -/
theorem rm_S1x1x2 (e : Fin 2) : (S1x1x2.rowMajor (ix3 0 0 e)).val = e.val := by
  rw [Shape.rowMajor_val_three]; show (0 * _ + 0) * _ + e.val = e.val; omega

/-- The first point's store, read at an entry: the pair's entry. -/
theorem firstStore_apply (p : FVec Ideal S1x2 .f32) (e : Fin 2) : firstStore p (ix3 0 0 e) = p (ix2 0 e) := by
  unfold firstStore
  exact shapeCast_apply _ _ (ix3 0 0 e) (ix2 0 e) ((rm_S1x2 e).trans (rm_S1x1x2 e).symm)

/-- A later point's store, read at an entry: the prior block's entry plus the new pair's entry. -/
theorem pay1_apply (p : FVec Ideal S1x2 .f32) (v : Vec Ideal S1x1x2 .f32) (e : Fin 2) :
    k0_pay1 p v (ix3 0 0 e) = v (ix3 0 0 e) + p (ix2 0 e) := by
  unfold k0_pay1
  rw [shapeCast_apply _ _ (ix3 0 0 e) (ix2 0 e) ((rm_S1x2 e).trans (rm_S1x1x2 e).symm), addf_apply,
    shapeCast_apply _ _ (ix2 0 e) (ix3 0 0 e) ((rm_S1x1x2 e).trans (rm_S1x2 e).symm)]

/-- The result array at an entry: the four batches' pairs' entries added in order. -/
theorem accFinal_apply (m : (ℓ : Loc nD τ sig) → Buf (Elt Ideal) ℓ) (c : Dev nD) (e : Fin 2) :
    accFinal m c (ix3 0 0 e)
      = ((pointSums (blkA m c 0) (blkB m c 0) (ix2 0 e) + pointSums (blkA m c 1) (blkB m c 1) (ix2 0 e))
          + pointSums (blkA m c 2) (blkB m c 2) (ix2 0 e)) + pointSums (blkA m c 3) (blkB m c 3) (ix2 0 e) := by
  unfold accFinal
  rw [pay1_apply, pay1_apply, pay1_apply, firstStore_apply]

section Batch
variable (m : (ℓ : Loc nD τ sig) → Buf (Elt Ideal) ℓ) (c : Dev nD) (t : Fin 4)

/-- The first half of batch t of the first array, as rows. -/
theorem rows_topHalf : PointValue.rows (topHalf (blkA m c t)) = Chamfer.top (batches (m ((c : Thread nD τ).loc main_arg0)) t) := by
  funext n d; rfl

/-- The second half of batch t of the first array, as rows. -/
theorem rows_botHalf : PointValue.rows (botHalf (blkA m c t)) = Chamfer.bot (batches (m ((c : Thread nD τ).loc main_arg0)) t) := by
  funext n d; rfl

/-- Batch t of the second array, as rows. -/
theorem rows_blkB : PointValue.rows (blkB m c t) = batches (m ((c : Thread nD τ).loc main_arg1)) t := by
  funext n d; rfl

variable (hA : ∀ i, ∃ r : ℝ, (m ((c : Thread nD τ).loc main_arg0) : FVec Ideal S4x4096x64 .f32) i = (r : EReal))
  (hB : ∀ i, ∃ r : ℝ, (m ((c : Thread nD τ).loc main_arg1) : FVec Ideal S4x4096x64 .f32) i = (r : EReal))

include hA hB

/-- A batch's pair, first entry: the first set's nearest-distance sum over that batch. -/
theorem pointSums_entry0 : pointSums (blkA m c t) (blkB m c t) (ix2 0 0)
    = Chamfer.nearA (batches (m ((c : Thread nD τ).loc main_arg0)) t) (batches (m ((c : Thread nD τ).loc main_arg1)) t) := by
  unfold pointSums
  rw [PointValue.pointSums_fst (topHalf (blkA m c t)) (botHalf (blkA m c t)) (blkB m c t)
      (fun i => hA _) (fun i => hA _) (fun i => hB _),
    rows_topHalf, rows_botHalf, rows_blkB, Chamfer.nearA_halves]

/-- A batch's pair, second entry: the second set's nearest-distance sum over that batch. -/
theorem pointSums_entry1 : pointSums (blkA m c t) (blkB m c t) (ix2 0 1)
    = Chamfer.nearB (batches (m ((c : Thread nD τ).loc main_arg0)) t) (batches (m ((c : Thread nD τ).loc main_arg1)) t) := by
  unfold pointSums
  rw [PointValue.pointSums_snd (topHalf (blkA m c t)) (botHalf (blkA m c t)) (blkB m c t)
      (fun i => hA _) (fun i => hA _) (fun i => hB _),
    rows_topHalf, rows_botHalf, rows_blkB, Chamfer.nearB2_halves]

end Batch

/-- The host lines of the accumulated output are the accumulating arrangement of the loss. -/
theorem tail_value (m : (ℓ : Loc nD τ sig) → Buf (Elt Ideal) ℓ) (c : Dev nD)
    (hA : ∀ i, ∃ r : ℝ, (m ((c : Thread nD τ).loc main_arg0) : FVec Ideal S4x4096x64 .f32) i = (r : EReal))
    (hB : ∀ i, ∃ r : ℝ, (m ((c : Thread nD τ).loc main_arg1) : FVec Ideal S4x4096x64 .f32) i = (r : EReal)) :
    hostTail (accFinal m c)
      = fun _ => Chamfer.kerLoss (batches (m ((c : Thread nD τ).loc main_arg0))) (batches (m ((c : Thread nD τ).loc main_arg1))) := by
  funext i
  rw [hostTail_apply, accFinal_apply, accFinal_apply]
  simp only [pointSums_entry0 m c _ hA hB, pointSums_entry1 m c _ hA hB]
  rfl

end Cert.KernelIdeal.Bridge

end
-- ==== Proof.Finite.lean ====
/-
  From the precondition to what the algebra uses: the two printed "all |x| < +inf" tests, conjoined, say that every
  entry of either argument array is a real number (neither infinity).
-/
import proofs.«178844_g68143951118336_cont_9to1c4b_323_21_alg».proof.Pre_finite_inputs
import proofs.«178844_g68143951118336_cont_9to1c4b_323_21_alg».proof.Proof.Gen.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.Pre_finite_inputs.Decode

open Idealize.ShloMosaic Cert.Pre_finite_inputs Cert.Pre_finite_inputs.Gen

/-- The rank-0 shape has exactly one index. -/
instance : Subsingleton S_.Idx := ⟨fun a b => funext fun d => d.elim0⟩

/-- The f32 word with all-ones exponent, zero fraction and clear sign denotes +∞. -/
theorem inf_word_eq_top : Ideal.ofBits .f32 0x7F800000#32 = (⊤ : EReal) := by
  simp [Ideal.ofBits, Ideal.ieee]

/-- An extended real whose absolute value max a (−a) lies strictly below +∞ is a real number:
    at −∞ the maximum is −(−∞) = +∞, at +∞ it is +∞, and neither is below +∞. -/
theorem real_of_abs_lt_top (a : EReal) (h : max a (-a) < ⊤) : ∃ r : ℝ, a = (r : EReal) := by
  induction a using EReal.rec with
  | bot => simp at h
  | coe r => exact ⟨r, rfl⟩
  | top => simp at h

/-- One entry of one test: where the comparison |z i| < +∞ came out true, z i is a real number. -/
theorem real_of_test (z : FVec Ideal S4x4096x64 .f32) (i : S4x4096x64.Idx)
    (hz : cmpf CmpFPredicate.olt (Host.absf z)
        (broadcastInDim S4x4096x64 ![] Facts.bcast_S_S4x4096x64 (constant S_ FTy.f32 0x7F800000#32)) i = 1#1) :
    ∃ r : ℝ, z i = (r : EReal) := by
  -- at an index the test compares max (z i) (−z i) with the value the constant word denotes
  change Ideal.cmp .olt (max (z i) (-(z i))) (Ideal.ofBits .f32 0x7F800000#32) = 1#1 at hz
  rw [inf_word_eq_top] at hz
  have hlt : max (z i) (-(z i)) < (⊤ : EReal) := by
    by_contra hn
    simp only [Ideal.cmp] at hz
    rw [decide_eq_false hn] at hz
    exact absurd hz (by decide)
  exact real_of_abs_lt_top _ hlt

/-- Where the printed predicate is all ones, every entry of both arrays is (the coercion of) a real number. -/
theorem real_of_pre (x y : FVec Ideal S4x4096x64 .f32)
    (h : Cert.Pre_finite_inputs.fn (F := Ideal) x y = fun _ => 1#1) :
    (∀ i, ∃ r : ℝ, x i = (r : EReal)) ∧ (∀ i, ∃ r : ℝ, y i = (r : EReal)) := by
  have h0 := congrFun h ValueIdx.ix0
  dsimp only [Cert.Pre_finite_inputs.fn] at h0
  -- the conjunction of the two tests is 1, so each test is 1; a test is an "and" over all entries, so each entry is 1
  obtain ⟨hx, hy⟩ := IntOp.andi_eq_one.1 h0
  exact ⟨fun i => real_of_test x i (Host.reduce_andi_all _ _ _ _ _ hx i),
    fun i => real_of_test y i (Host.reduce_andi_all _ _ _ _ _ hy i)⟩

end Cert.Pre_finite_inputs.Decode

end
-- ==== Proof.lean ====
/-
  The certificate's claim. The kernel tiles the distance table into row blocks and folds both nearest-distance
  reductions into one pass per batch, accumulating two totals across the four batches; the reference builds the whole
  [4, 4096, 4096] table of distances and reduces it twice. At the ideal values both are the same number:
  the body's single 68-term contraction over rows augmented with their squared norms and ones is
  |a|² + |b|² − 2⟨a, b⟩ for real entries (the precondition is used exactly there); clamping at zero and the square
  root are monotone, so they commute with the minima; and dividing the totals by 4096 and then by 4·c is dividing the
  batches' means by 4 and then by c, every term being non-negative. The three frames are the runs with their results
  dropped; the idealization's six ledger entries are the format round trip's statement at each shape.
-/
import proofs.«178844_g68143951118336_cont_9to1c4b_323_21_alg».proof.Defs
import proofs.«178844_g68143951118336_cont_9to1c4b_323_21_alg».proof.Proof.Gen.Kernel
import proofs.«178844_g68143951118336_cont_9to1c4b_323_21_alg».proof.Proof.Gen.KernelIdeal
import proofs.«178844_g68143951118336_cont_9to1c4b_323_21_alg».proof.Proof.Gen.ReferenceIdeal
import proofs.«178844_g68143951118336_cont_9to1c4b_323_21_alg».proof.Proof.Gen.Pre_finite_inputs
import proofs.«178844_g68143951118336_cont_9to1c4b_323_21_alg».proof.Proof.RunK
import proofs.«178844_g68143951118336_cont_9to1c4b_323_21_alg».proof.Proof.RunKi
import proofs.«178844_g68143951118336_cont_9to1c4b_323_21_alg».proof.Proof.RefValue
import proofs.«178844_g68143951118336_cont_9to1c4b_323_21_alg».proof.Proof.Bridge
import proofs.«178844_g68143951118336_cont_9to1c4b_323_21_alg».proof.Proof.Finite
import proofs.«178844_g68143951118336_cont_9to1c4b_323_21_alg».proof.Proof.Spec
import Idealize.ShloMosaic.Adequacy
import Idealize.ShloMosaic.Init

noncomputable section

namespace Cert.Proof

open Idealize.ShloMosaic Idealize.SL.Sem

/-- The word-level program runs and leaves its arguments as they were. -/
theorem frame_k : Cert.frame_Kernel (hKernel := Cert.Kernel.Gen.facts) (hPre_finite_inputs := Cert.Pre_finite_inputs.Gen.facts) :=
  fun m ρ _ => Cert.Kernel.Acc.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Acc.frame m ρ

/-- And the reference: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefValue.run_value m ρ)

/-- Each ledger entry: narrowing to bf16 and widening back is the identity on extended reals and the rounding on words. -/
theorem preserves : Cert.preserves_Kernel_KernelIdeal :=
  ⟨IdealRules.truncf_extf.statement _ _ _, IdealRules.truncf_extf.statement _ _ _, IdealRules.truncf_extf.statement _ _ _,
   IdealRules.truncf_extf.statement _ _ _, IdealRules.truncf_extf.statement _ _ _, IdealRules.truncf_extf.statement _ _ _⟩

/-- From memories that agree on the two point sets, with real entries, both programs end at one number: the kernel's
    at the accumulating arrangement of the loss, the reference's at the averaging one, and the two arrangements agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c _ => Chamfer.kerLoss
      (Cert.KernelIdeal.Bridge.batches (m ((c.tc : Thread Cert.KernelIdeal.nD Cert.KernelIdeal.τ).loc Cert.KernelIdeal.main_arg0)))
      (Cert.KernelIdeal.Bridge.batches (m ((c.tc : Thread Cert.KernelIdeal.nD Cert.KernelIdeal.τ).loc Cert.KernelIdeal.main_arg1))), ?_, ?_⟩
  · refine (θ_run Cert.KernelIdeal.defs _ _).mono (fun _ h c => ⟨(h c).1.trans ?_, (h c).2⟩)
      (Cert.KernelIdeal.Acc.run_value m ρ)
    obtain ⟨hA, hB⟩ := Cert.Pre_finite_inputs.Decode.real_of_pre _ _ (hpre c)
    exact Cert.KernelIdeal.Bridge.tail_value m c hA hB
  · refine (θ_run Cert.ReferenceIdeal.defs _ _).mono (fun _ h c => ⟨(h c).1.trans ?_, (h c).2⟩)
      (Cert.ReferenceIdeal.RefValue.run_value m' ρ')
    rw [(hagree c).1, (hagree c).2]
    funext _
    exact (Chamfer.kerLoss_eq_refLoss _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
